-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S12288x1024 : Shape := ⟨2, ![12288, 1024]⟩
abbrev S12288 : Shape := ⟨1, ![12288]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S12288x1024 : S_.BroadcastsInDim S12288x1024 (![] : Fin 0 → Fin S12288x1024.rank)
  reducesTo_S12288x1024_S_d0_1 : S12288x1024.ReducesTo [0, 1] S_

variable [Facts]

def fn {F : FTy → Type} [FloatOps F] (main_arg0 : FVec F S16384x1024 .f32) (main_arg1 : FVec F S12288x1024 .f32) (main_arg2 : IVec S12288 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S12288x1024 .f32 := Host.absf main_arg1
  let main_cst_0 : FVec F S_ .f32 := constant S_ .f32 0x7F800000#32
  let main_v5 : FVec F S12288x1024 .f32 := broadcastInDim S12288x1024 ![] bcast_S_S12288x1024 main_cst_0
  let main_v6 : IVec S12288x1024 1 := cmpf .olt main_v4 main_v5
  let main_c_1 : IVec S_ 1 := constantI S_ 1 1#1
  let main_v7 : IVec S_ 1 := (fun x v => Host.reduce IntOp.andi x v reducesTo_S12288x1024_S_d0_1 h_S_) main_v6 main_c_1
  let main_v8 : IVec S_ 1 := andi main_v3 main_v7
  main_v8
-- ==== Kernel.lean ====
abbrev S16384x1024 : Shape := ⟨2, ![16384, 1024]⟩
abbrev S12288x1024 : Shape := ⟨2, ![12288, 1024]⟩
abbrev S12288 : Shape := ⟨1, ![12288]⟩
abbrev S12288x1 : Shape := ⟨2, ![12288, 1]⟩
abbrev S1x4096 : Shape := ⟨2, ![1, 4096]⟩
abbrev S12288x4096 : Shape := ⟨2, ![12288, 4096]⟩
abbrev S16384x4096 : Shape := ⟨2, ![16384, 4096]⟩
abbrev S512x1024 : Shape := ⟨2, ![512, 1024]⟩
abbrev S128x1024 : Shape := ⟨2, ![128, 1024]⟩
abbrev S128x4096 : Shape := ⟨2, ![128, 4096]⟩
abbrev S512x4096 : Shape := ⟨2, ![512, 4096]⟩
abbrev S512x1 : Shape := ⟨2, ![512, 1]⟩
abbrev S512x128 : Shape := ⟨2, ![512, 128]⟩
abbrev S512 : Shape := ⟨1, ![512]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S12288x1024, .f32⟩
  | .hbm, ⟨2, _⟩ => ⟨S12288, .i32⟩
  | .hbm, ⟨3, _⟩ => ⟨S12288x1, .i32⟩
  | .hbm, ⟨4, _⟩ => ⟨S1x4096, .i32⟩
  | .hbm, ⟨5, _⟩ => ⟨S12288x4096, .i32⟩
  | .hbm, ⟨6, _⟩ => ⟨S12288x4096, .i32⟩
  | .hbm, ⟨7, _⟩ => ⟨S12288x4096, .i1⟩
  | .hbm, ⟨8, _⟩ => ⟨S12288x4096, .bf16⟩
  | .hbm, ⟨9, _⟩ => ⟨S16384x4096, .f32⟩
  | .local _ .vmem, ⟨0, _⟩ => ⟨S512x1024, .f32⟩
  | .local _ .vmem, ⟨1, _⟩ => ⟨S512x1024, .f32⟩
  | .local _ .vmem, ⟨2, _⟩ => ⟨S128x1024, .f32⟩
  | .local _ .vmem, ⟨3, _⟩ => ⟨S128x1024, .f32⟩
  | .local _ .vmem, ⟨4, _⟩ => ⟨S128x4096, .bf16⟩
  | .local _ .vmem, ⟨5, _⟩ => ⟨S128x4096, .bf16⟩
  | .local _ .vmem, ⟨6, _⟩ => ⟨S512x4096, .f32⟩
  | .local _ .vmem, ⟨7, _⟩ => ⟨S512x4096, .f32⟩
  | .local _ .vmem, ⟨8, _⟩ => ⟨S512x1, .f32⟩
  | .local _ .vmem, ⟨9, _⟩ => ⟨S512x1, .f32⟩
  | .local _ .vmem, ⟨10, _⟩ => ⟨S512x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 96], ![false, false]⟩

def k0_cond2 (i : grid0.Coords) : BitVec 1 :=
  let arg1 : BitVec 32 := BitVec.ofNat 32 (i 1).val
  let c95_i32 : BitVec 32 := 95#32
  let v38 : BitVec 1 := Scalar.cmpi .eq arg1 c95_i32
  let v39 : BitVec 32 := Scalar.extui v38
  let c0_i32_23 : BitVec 32 := 0#32
  let v40 : BitVec 1 := Scalar.cmpi .ne v39 c0_i32_23
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S12288_S12288x1_0 : S12288.BroadcastsInDim S12288x1 (![0] : Fin 1 → Fin S12288x1.rank)
  bcast_S12288x1_S12288x4096_0_1 : S12288x1.BroadcastsInDim S12288x4096 (![0, 1] : Fin 2 → Fin S12288x4096.rank)
  bcast_S1x4096_S12288x4096_0_1 : S1x4096.BroadcastsInDim S12288x4096 (![0, 1] : Fin 2 → Fin S12288x4096.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x1024_S512x1024_0_0 : ∀ a, (![0, 0] : Fin 2 → Nat) a + S512x1024.size a ≤ S512x1024.size a
  h_S512x1024 : 0 < S512x1024.numel
  inb_S128x1024_S128x1024_0_0 : ∀ a, (![0, 0] : Fin 2 → Nat) a + S128x1024.size a ≤ S128x1024.size a
  h_S128x1024 : 0 < S128x1024.numel
  reduces_S512x128_S512 : S512x128.Reduces [1] S512
  shapeCasts_S512_S512x1 : S512.ShapeCasts S512x1
  broadcasts_S512x1_S512x128 : S512x1.Broadcasts S512x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  bitsLt_bf16_f32 : FTy.bits .bf16 < FTy.bits .f32
  broadcasts_S512x1_S512x4096 : S512x1.Broadcasts S512x4096
  dot_S512x1024_S128x1024_S512x128_1_1_0_0_n_n_wf : DotDims.WF S512x1024 S128x1024 S512x128 [1] [1] [0] [0] [] []
  dot_S512x128_S128x4096_S512x4096_1_0_0_1_n_n_wf : DotDims.WF S512x128 S128x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S12288x1024.size a
  hwx0_1 : ∀ i : grid0.Coords, EltTy.bits .f32 = 32 ∨ (Rect.block (s := S12288x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S12288x4096.size a
  hwx0_2 : ∀ i : grid0.Coords, EltTy.bits .bf16 = 32 ∨ (Rect.block (s := S12288x4096) S128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

def dot_S512x1024_S128x1024_S512x128_1_1_0_0_n_n : DotDims S512x1024 S128x1024 S512x128 where
  lhsContracting := [1]
  rhsContracting := [1]
  lhsNonContracting := [0]
  rhsNonContracting := [0]
  lhsBatch := []
  rhsBatch := []
  wf := dot_S512x1024_S128x1024_S512x128_1_1_0_0_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x1024 : Shape := ⟨2, ![16384, 1024]⟩
abbrev S12288x1024 : Shape := ⟨2, ![12288, 1024]⟩
abbrev S12288 : Shape := ⟨1, ![12288]⟩
abbrev S1024x12288 : Shape := ⟨2, ![1024, 12288]⟩
abbrev S16384x12288 : Shape := ⟨2, ![16384, 12288]⟩
abbrev S_ : Shape := ⟨0, ![]⟩
abbrev S16384 : Shape := ⟨1, ![16384]⟩
abbrev S16384x1 : Shape := ⟨2, ![16384, 1]⟩
abbrev S12288x16384 : Shape := ⟨2, ![12288, 16384]⟩
abbrev S4096x16384 : Shape := ⟨2, ![4096, 16384]⟩
abbrev S12288x1 : Shape := ⟨2, ![12288, 1]⟩
abbrev S16384x4096 : Shape := ⟨2, ![16384, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S12288x1024, .f32⟩
  | .hbm, ⟨2, _⟩ => ⟨S12288, .i32⟩
  | .hbm, ⟨3, _⟩ => ⟨S1024x12288, .f32⟩
  | .hbm, ⟨4, _⟩ => ⟨S16384x12288, .f32⟩
  | .hbm, ⟨5, _⟩ => ⟨S_, .f32⟩
  | .hbm, ⟨6, _⟩ => ⟨S16384x12288, .f32⟩
  | .hbm, ⟨7, _⟩ => ⟨S16384x12288, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x12288, .f32⟩
  | .hbm, ⟨15, _⟩ => ⟨S16384x12288, .f32⟩
  | .hbm, ⟨16, _⟩ => ⟨S16384x12288, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x12288, .f32⟩
  | .hbm, ⟨21, _⟩ => ⟨S16384x12288, .f32⟩
  | .hbm, ⟨22, _⟩ => ⟨S12288x16384, .f32⟩
  | .hbm, ⟨23, _⟩ => ⟨S_, .f32⟩
  | .hbm, ⟨24, _⟩ => ⟨S4096x16384, .f32⟩
  | .hbm, ⟨25, _⟩ => ⟨S12288x1, .i32⟩
  | .hbm, ⟨26, _⟩ => ⟨S4096x16384, .f32⟩
  | .hbm, ⟨27, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S12288x1024_S1024x12288_1_0 : S12288x1024.Transposes [1, 0] S1024x12288
  bcast_S_S16384x12288 : S_.BroadcastsInDim S16384x12288 (![] : Fin 0 → Fin S16384x12288.rank)
  reducesTo_S16384x12288_S16384_d1 : S16384x12288.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x12288_0_1 : S16384x1.BroadcastsInDim S16384x12288 (![0, 1] : Fin 2 → Fin S16384x12288.rank)
  transposes_S16384x12288_S12288x16384_1_0 : S16384x12288.Transposes [1, 0] S12288x16384
  bcast_S_S4096x16384 : S_.BroadcastsInDim S4096x16384 (![] : Fin 0 → Fin S4096x16384.rank)
  bcast_S12288_S12288x1_0 : S12288.BroadcastsInDim S12288x1 (![0] : Fin 1 → Fin S12288x1.rank)
  transposes_S4096x16384_S16384x4096_1_0 : S4096x16384.Transposes [1, 0] S16384x4096
  dot_S16384x1024_S1024x12288_S16384x12288_1_0_0_1_n_n_wf : DotDims.WF S16384x1024 S1024x12288 S16384x12288 [1] [0] [0] [1] [] []
  scatter_S4096x16384_S12288x1_S12288x16384_1_0_0_1_wf : ScatterDims.WF S4096x16384 S12288x1 S12288x16384 [1] [0] [0] 1

variable [Facts₀]

def dot_S16384x1024_S1024x12288_S16384x12288_1_0_0_1_n_n : DotDims S16384x1024 S1024x12288 S16384x12288 where
  lhsContracting := [1]
  rhsContracting := [0]
  lhsNonContracting := [0]
  rhsNonContracting := [1]
  lhsBatch := []
  rhsBatch := []
  wf := dot_S16384x1024_S1024x12288_S16384x12288_1_0_0_1_n_n_wf
def scatter_S4096x16384_S12288x1_S12288x16384_1_0_0_1 : ScatterDims S4096x16384 S12288x1 S12288x16384 where
  updateWindowDims := [1]
  insertedWindowDims := [0]
  scatterDimsToOperandDims := [0]
  indexVectorDim := 1
  wf := scatter_S4096x16384_S12288x1_S12288x16384_1_0_0_1_wf

class Facts : Prop extends Facts₀ where

variable [Facts]
-- ==== Proof.Pieces.lean ====
/-
  What each case of the body leaves in the three carried quantities and in the output block, as terms over the point's inputs.

  The body has three cases by the position k of the point along the centroid axis. At k = 0 it first resets the running maximum
  to minus infinity and the two running sums to zero and then updates them; at 0 < k < 95 it updates what the point before
  left; at k = 95 it updates and then writes the accumulator divided by the normaliser to the output block. In every case
  the update of the maximum is one term of the point's X block, centroid block and old maximum; the update of the normaliser
  one term of those and the old normaliser; the update of the accumulator one term of those, the class-table block and the
  old accumulator. Each store covers its whole buffer, so what a buffer holds after the body is the last value stored.
-/
import proofs.«419428_j32246614458630_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

/-- Every store and load of the body starts at the origin of its buffer. -/
theorem hz : (![0, 0] : Fin 2 → Nat) = fun _ => 0 := funext fun a => by fin_cases a <;> rfl

/-! ## The first tile of a row: reset, then update -/

theorem maxA (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S128x4096 .bf16) (harg4 : arg4.IsWhole) (arg5 : Memref sig .tc .vmem S512x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x4096 .f32) (harg8 : arg8.IsWhole) (hc0 : cond0_0 i) (hc1 : ¬cond0_1 i) (x0 : Vec F S512x1024 .f32) (x1 : Vec F S128x1024 .f32) (x2 : Vec F S128x4096 .bf16) :
    sout0_A_0 c i arg2 harg2 arg3 harg3 arg4 harg4 arg5 harg5 arg6 harg6 arg7 harg7 arg8 harg8 hc0 hc1 x0 x1 x2 = k0_pay2 (k0_pay8 x0 x1 k0_pay4) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz]
  simp only [View.readCov_unit_zero (S := S512x1) _ hz, View.readCov_unit_zero (S := S512x4096) _ hz, View.readAt_eq_ld, harg2.read_unread, harg3.read_unread, harg4.read_unread, harg6.read_unread, harg7.read_unread, harg8.read_unread, View.ld_unit_zero (S := S512x1024) hz, View.ld_unit_zero (S := S128x1024) hz, View.ld_unit_zero (S := S128x4096) hz, View.ld_unit_zero (S := S512x1) hz, View.ld_unit_zero (S := S512x4096) hz]

theorem normA (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S128x4096 .bf16) (harg4 : arg4.IsWhole) (arg5 : Memref sig .tc .vmem S512x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x4096 .f32) (harg8 : arg8.IsWhole) (hc0 : cond0_0 i) (hc1 : ¬cond0_1 i) (x0 : Vec F S512x1024 .f32) (x1 : Vec F S128x1024 .f32) (x2 : Vec F S128x4096 .bf16) :
    sout0_A_1 c i arg2 harg2 arg3 harg3 arg4 harg4 arg5 harg5 arg6 harg6 arg7 harg7 arg8 harg8 hc0 hc1 x0 x1 x2 = k0_pay11 x0 x1 k0_pay4 k0_pay4 k0_pay5 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz]
  simp only [View.readCov_unit_zero (S := S512x1) _ hz, View.readCov_unit_zero (S := S512x4096) _ hz, View.readAt_eq_ld, harg2.read_unread, harg3.read_unread, harg4.read_unread, harg6.read_unread, harg7.read_unread, harg8.read_unread, View.ld_unit_zero (S := S512x1024) hz, View.ld_unit_zero (S := S128x1024) hz, View.ld_unit_zero (S := S128x4096) hz, View.ld_unit_zero (S := S512x1) hz, View.ld_unit_zero (S := S512x4096) hz]

theorem accA (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S128x4096 .bf16) (harg4 : arg4.IsWhole) (arg5 : Memref sig .tc .vmem S512x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x4096 .f32) (harg8 : arg8.IsWhole) (hc0 : cond0_0 i) (hc1 : ¬cond0_1 i) (x0 : Vec F S512x1024 .f32) (x1 : Vec F S128x1024 .f32) (x2 : Vec F S128x4096 .bf16) :
    sout0_A_2 c i arg2 harg2 arg3 harg3 arg4 harg4 arg5 harg5 arg6 harg6 arg7 harg7 arg8 harg8 hc0 hc1 x0 x1 x2 = k0_pay1 (k0_pay12 x0 x1 k0_pay4 k0_pay4 x2 k0_pay6) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x4096) hz]
  simp only [View.readCov_unit_zero (S := S512x1) _ hz, View.readCov_unit_zero (S := S512x4096) _ hz, View.readAt_eq_ld, harg2.read_unread, harg3.read_unread, harg4.read_unread, harg6.read_unread, harg7.read_unread, harg8.read_unread, View.ld_unit_zero (S := S512x1024) hz, View.ld_unit_zero (S := S128x1024) hz, View.ld_unit_zero (S := S128x4096) hz, View.ld_unit_zero (S := S512x1) hz, View.ld_unit_zero (S := S512x4096) hz]

/-! ## A middle tile: update what the point before left -/

theorem maxB (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S128x4096 .bf16) (harg4 : arg4.IsWhole) (arg5 : Memref sig .tc .vmem S512x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x4096 .f32) (harg8 : arg8.IsWhole) (hc0 : ¬cond0_0 i) (hc1 : ¬cond0_1 i) (x0 : Vec F S512x1024 .f32) (x1 : Vec F S128x1024 .f32) (x2 : Vec F S128x4096 .bf16) (xs0 : Vec F S512x1 .f32) (xs1 : Vec F S512x1 .f32) (xs2 : Vec F S512x4096 .f32) :
    sout0_B_0 c i arg2 harg2 arg3 harg3 arg4 harg4 arg5 harg5 arg6 harg6 arg7 harg7 arg8 harg8 hc0 hc1 x0 x1 x2 xs0 xs1 xs2 = k0_pay2 (k0_pay8 x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readCov_unit_zero (S := S512x1) _ hz, View.readCov_unit_zero (S := S512x4096) _ hz, View.readAt_eq_ld, harg2.read_unread, harg3.read_unread, harg4.read_unread, harg6.read_unread, harg7.read_unread, harg8.read_unread, View.ld_unit_zero (S := S512x1024) hz, View.ld_unit_zero (S := S128x1024) hz, View.ld_unit_zero (S := S128x4096) hz, View.ld_unit_zero (S := S512x1) hz, View.ld_unit_zero (S := S512x4096) hz]

theorem normB (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S128x4096 .bf16) (harg4 : arg4.IsWhole) (arg5 : Memref sig .tc .vmem S512x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x4096 .f32) (harg8 : arg8.IsWhole) (hc0 : ¬cond0_0 i) (hc1 : ¬cond0_1 i) (x0 : Vec F S512x1024 .f32) (x1 : Vec F S128x1024 .f32) (x2 : Vec F S128x4096 .bf16) (xs0 : Vec F S512x1 .f32) (xs1 : Vec F S512x1 .f32) (xs2 : Vec F S512x4096 .f32) :
    sout0_B_1 c i arg2 harg2 arg3 harg3 arg4 harg4 arg5 harg5 arg6 harg6 arg7 harg7 arg8 harg8 hc0 hc1 x0 x1 x2 xs0 xs1 xs2 = k0_pay11 x0 x1 xs0 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readCov_unit_zero (S := S512x1) _ hz, View.readCov_unit_zero (S := S512x4096) _ hz, View.readAt_eq_ld, harg2.read_unread, harg3.read_unread, harg4.read_unread, harg6.read_unread, harg7.read_unread, harg8.read_unread, View.ld_unit_zero (S := S512x1024) hz, View.ld_unit_zero (S := S128x1024) hz, View.ld_unit_zero (S := S128x4096) hz, View.ld_unit_zero (S := S512x1) hz, View.ld_unit_zero (S := S512x4096) hz]

theorem accB (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S128x4096 .bf16) (harg4 : arg4.IsWhole) (arg5 : Memref sig .tc .vmem S512x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x4096 .f32) (harg8 : arg8.IsWhole) (hc0 : ¬cond0_0 i) (hc1 : ¬cond0_1 i) (x0 : Vec F S512x1024 .f32) (x1 : Vec F S128x1024 .f32) (x2 : Vec F S128x4096 .bf16) (xs0 : Vec F S512x1 .f32) (xs1 : Vec F S512x1 .f32) (xs2 : Vec F S512x4096 .f32) :
    sout0_B_2 c i arg2 harg2 arg3 harg3 arg4 harg4 arg5 harg5 arg6 harg6 arg7 harg7 arg8 harg8 hc0 hc1 x0 x1 x2 xs0 xs1 xs2 = k0_pay1 (k0_pay12 x0 x1 xs0 xs0 x2 xs2) := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readCov_unit_zero (S := S512x1) _ hz, View.readCov_unit_zero (S := S512x4096) _ hz, View.readAt_eq_ld, harg2.read_unread, harg3.read_unread, harg4.read_unread, harg6.read_unread, harg7.read_unread, harg8.read_unread, View.ld_unit_zero (S := S512x1024) hz, View.ld_unit_zero (S := S128x1024) hz, View.ld_unit_zero (S := S128x4096) hz, View.ld_unit_zero (S := S512x1) hz, View.ld_unit_zero (S := S512x4096) hz]

/-! ## The last tile: update, then divide into the output block -/

theorem maxC (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S128x4096 .bf16) (harg4 : arg4.IsWhole) (arg5 : Memref sig .tc .vmem S512x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x4096 .f32) (harg8 : arg8.IsWhole) (hc0 : ¬cond0_0 i) (hc1 : cond0_1 i) (x0 : Vec F S512x1024 .f32) (x1 : Vec F S128x1024 .f32) (x2 : Vec F S128x4096 .bf16) (xs0 : Vec F S512x1 .f32) (xs1 : Vec F S512x1 .f32) (xs2 : Vec F S512x4096 .f32) :
    sout0_C_0 c i arg2 harg2 arg3 harg3 arg4 harg4 arg5 harg5 arg6 harg6 arg7 harg7 arg8 harg8 hc0 hc1 x0 x1 x2 xs0 xs1 xs2 = k0_pay2 (k0_pay8 x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readCov_unit_zero (S := S512x1) _ hz, View.readCov_unit_zero (S := S512x4096) _ hz, View.readAt_eq_ld, harg2.read_unread, harg3.read_unread, harg4.read_unread, harg6.read_unread, harg7.read_unread, harg8.read_unread, View.ld_unit_zero (S := S512x1024) hz, View.ld_unit_zero (S := S128x1024) hz, View.ld_unit_zero (S := S128x4096) hz, View.ld_unit_zero (S := S512x1) hz, View.ld_unit_zero (S := S512x4096) hz]

theorem normC (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S128x4096 .bf16) (harg4 : arg4.IsWhole) (arg5 : Memref sig .tc .vmem S512x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x4096 .f32) (harg8 : arg8.IsWhole) (hc0 : ¬cond0_0 i) (hc1 : cond0_1 i) (x0 : Vec F S512x1024 .f32) (x1 : Vec F S128x1024 .f32) (x2 : Vec F S128x4096 .bf16) (xs0 : Vec F S512x1 .f32) (xs1 : Vec F S512x1 .f32) (xs2 : Vec F S512x4096 .f32) :
    sout0_C_1 c i arg2 harg2 arg3 harg3 arg4 harg4 arg5 harg5 arg6 harg6 arg7 harg7 arg8 harg8 hc0 hc1 x0 x1 x2 xs0 xs1 xs2 = k0_pay11 x0 x1 xs0 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readCov_unit_zero (S := S512x1) _ hz, View.readCov_unit_zero (S := S512x4096) _ hz, View.readAt_eq_ld, harg2.read_unread, harg3.read_unread, harg4.read_unread, harg6.read_unread, harg7.read_unread, harg8.read_unread, View.ld_unit_zero (S := S512x1024) hz, View.ld_unit_zero (S := S128x1024) hz, View.ld_unit_zero (S := S128x4096) hz, View.ld_unit_zero (S := S512x1) hz, View.ld_unit_zero (S := S512x4096) hz]

theorem accC (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S128x4096 .bf16) (harg4 : arg4.IsWhole) (arg5 : Memref sig .tc .vmem S512x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x4096 .f32) (harg8 : arg8.IsWhole) (hc0 : ¬cond0_0 i) (hc1 : cond0_1 i) (x0 : Vec F S512x1024 .f32) (x1 : Vec F S128x1024 .f32) (x2 : Vec F S128x4096 .bf16) (xs0 : Vec F S512x1 .f32) (xs1 : Vec F S512x1 .f32) (xs2 : Vec F S512x4096 .f32) :
    sout0_C_2 c i arg2 harg2 arg3 harg3 arg4 harg4 arg5 harg5 arg6 harg6 arg7 harg7 arg8 harg8 hc0 hc1 x0 x1 x2 xs0 xs1 xs2 = k0_pay1 (k0_pay12 x0 x1 xs0 xs0 x2 xs2) := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readCov_unit_zero (S := S512x1) _ hz, View.readCov_unit_zero (S := S512x4096) _ hz, View.readAt_eq_ld, harg2.read_unread, harg3.read_unread, harg4.read_unread, harg6.read_unread, harg7.read_unread, harg8.read_unread, View.ld_unit_zero (S := S512x1024) hz, View.ld_unit_zero (S := S128x1024) hz, View.ld_unit_zero (S := S128x4096) hz, View.ld_unit_zero (S := S512x1) hz, View.ld_unit_zero (S := S512x4096) hz]

theorem outC (c : Dev nD) (i : grid0.Coords) (arg2 : Memref sig .tc .vmem S512x1024 .f32) (harg2 : arg2.IsWhole) (arg3 : Memref sig .tc .vmem S128x1024 .f32) (harg3 : arg3.IsWhole) (arg4 : Memref sig .tc .vmem S128x4096 .bf16) (harg4 : arg4.IsWhole) (arg5 : Memref sig .tc .vmem S512x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x4096 .f32) (harg8 : arg8.IsWhole) (hc0 : ¬cond0_0 i) (hc1 : cond0_1 i) (x0 : Vec F S512x1024 .f32) (x1 : Vec F S128x1024 .f32) (x2 : Vec F S128x4096 .bf16) (xs0 : Vec F S512x1 .f32) (xs1 : Vec F S512x1 .f32) (xs2 : Vec F S512x4096 .f32) :
    out0_C_3 c i arg2 harg2 arg3 harg3 arg4 harg4 arg5 harg5 arg6 harg6 arg7 harg7 arg8 harg8 hc0 hc1 x0 x1 x2 xs0 xs1 xs2 = k0_pay3 (k0_pay1 (k0_pay12 x0 x1 xs0 xs0 x2 xs2)) (k0_pay11 x0 x1 xs0 xs0 xs1) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readCov_unit_zero (S := S512x1) _ hz, View.readCov_unit_zero (S := S512x4096) _ hz, View.readAt_eq_ld, harg2.read_unread, harg3.read_unread, harg4.read_unread, harg6.read_unread, harg7.read_unread, harg8.read_unread, View.ld_unit_zero (S := S512x1024) hz, View.ld_unit_zero (S := S128x1024) hz, View.ld_unit_zero (S := S128x4096) hz, View.ld_unit_zero (S := S512x1) hz, View.ld_unit_zero (S := S512x4096) hz]

end Cert.KernelIdeal.Pieces

end
-- ==== Proof.CaseSteps.lean ====
/-
  What the three carried quantities and the output block hold after a point, case by case.

  After a point of a row's first tile the running maximum, normaliser and accumulator are the update terms applied to the reset
  values; after any other point they are the update terms applied to what the point before left; after a row's last tile the
  output block is, in addition, the new accumulator divided by the new normaliser.
-/
import proofs.«419428_j32246614458630_2_alg».proof.Proof.Pieces

set_option maxRecDepth 16384

noncomputable section

namespace Cert.KernelIdeal.Steps

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The point's three input blocks, at their literal types. -/
abbrev xblk (c : Dev nD) (t : Fin cfg0.N) : Vec F S512x1024 .f32 := iblk m c 0 t
abbrev cblk (c : Dev nD) (t : Fin cfg0.N) : Vec F S128x1024 .f32 := iblk m c 1 t
abbrev oblk (c : Dev nD) (t : Fin cfg0.N) : Vec F S128x4096 .bf16 := iblk m c 2 t

/-- What the point before `t` left in the running maximum, the normaliser and the accumulator. -/
abbrev prevMax (c : Dev nD) (t : Fin cfg0.N) : Vec F S512x1 .f32 := (outsAt0 m c (t.val - 1) (Nat.lt_of_le_of_lt (Nat.sub_le _ _) t.isLt)).2.1
abbrev prevNorm (c : Dev nD) (t : Fin cfg0.N) : Vec F S512x1 .f32 := (outsAt0 m c (t.val - 1) (Nat.lt_of_le_of_lt (Nat.sub_le _ _) t.isLt)).2.2.1
abbrev prevAcc (c : Dev nD) (t : Fin cfg0.N) : Vec F S512x4096 .f32 := (outsAt0 m c (t.val - 1) (Nat.lt_of_le_of_lt (Nat.sub_le _ _) t.isLt)).2.2.2

/-- A row's first tile. -/
theorem first (c : Dev nD) (t : Fin cfg0.N) (h0 : t.val % 96 = 0) (h1 : ¬t.val % 96 = 95) :
    (outsAt0 m c t.val t.isLt).2.1 = k0_pay2 (k0_pay8 (xblk m c t) (cblk m c t) k0_pay4)
    ∧ (outsAt0 m c t.val t.isLt).2.2.1 = k0_pay11 (xblk m c t) (cblk m c t) k0_pay4 k0_pay4 k0_pay5
    ∧ (outsAt0 m c t.val t.isLt).2.2.2 = k0_pay1 (k0_pay12 (xblk m c t) (cblk m c t) k0_pay4 k0_pay4 (oblk m c t) k0_pay6) := by
  rw [outsAt0_A m c t h0 h1]
  dsimp only
  exact ⟨Pieces.maxA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    Pieces.normA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    Pieces.accA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)⟩

/-- A middle tile. -/
theorem middle (c : Dev nD) (t : Fin cfg0.N) (h0 : ¬t.val % 96 = 0) (h1 : ¬t.val % 96 = 95) :
    (outsAt0 m c t.val t.isLt).2.1 = k0_pay2 (k0_pay8 (xblk m c t) (cblk m c t) (prevMax m c t))
    ∧ (outsAt0 m c t.val t.isLt).2.2.1 = k0_pay11 (xblk m c t) (cblk m c t) (prevMax m c t) (prevMax m c t) (prevNorm m c t)
    ∧ (outsAt0 m c t.val t.isLt).2.2.2 = k0_pay1 (k0_pay12 (xblk m c t) (cblk m c t) (prevMax m c t) (prevMax m c t) (oblk m c t) (prevAcc m c t)) := by
  rw [outsAt0_B m c t h0 h1]
  dsimp only
  exact ⟨Pieces.maxB c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.normB c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.accB c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- A row's last tile: the same update, and the output block. -/
theorem last (c : Dev nD) (t : Fin cfg0.N) (h0 : ¬t.val % 96 = 0) (h1 : t.val % 96 = 95) :
    (outsAt0 m c t.val t.isLt).1 = k0_pay3 (k0_pay1 (k0_pay12 (xblk m c t) (cblk m c t) (prevMax m c t) (prevMax m c t) (oblk m c t) (prevAcc m c t)))
        (k0_pay11 (xblk m c t) (cblk m c t) (prevMax m c t) (prevMax m c t) (prevNorm m c t))
    ∧ (outsAt0 m c t.val t.isLt).2.1 = k0_pay2 (k0_pay8 (xblk m c t) (cblk m c t) (prevMax m c t))
    ∧ (outsAt0 m c t.val t.isLt).2.2.1 = k0_pay11 (xblk m c t) (cblk m c t) (prevMax m c t) (prevMax m c t) (prevNorm m c t)
    ∧ (outsAt0 m c t.val t.isLt).2.2.2 = k0_pay1 (k0_pay12 (xblk m c t) (cblk m c t) (prevMax m c t) (prevMax m c t) (oblk m c t) (prevAcc m c t)) := by
  rw [outsAt0_C m c t h0 h1]
  dsimp only
  exact ⟨Pieces.outC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.maxC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.normC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.accC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

end Cert.KernelIdeal.Steps

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.LibKeepdims.lean ====
/-
  Column ("keepdims") layouts and row reductions of a matrix, read at explicit coordinates, at every extent.

  A vector of length a cast to a column [a, 1]; a column [a, 1] broadcast along its unit axis to [a, b]; the source index of a
  reduction of [a, b] along its second axis; the f32 pattern of minus infinity at the ideal values; and a kernel's matrix
  product whose right operand is contracted on its last axis (M x K by N x K), into the zero accumulator, as the sum over k
  of lhs (r, k) * rhs (c, k). Every kernel that keeps a per-row statistic in a column (a row maximum, a row sum with
  keepdims) and multiplies by a transposed right operand meets exactly these. The product's operand-index facts are those of
  the companion file on plain and transposed-right products (namespace Cert.Lib.PlainDot), which this file imports.
-/
import proofs.«419428_j32246614458630_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.Lib.Keepdims

open Idealize.ShloMosaic Idealize.ShloMosaic.ValueIdx

/-- A vector of length a cast to a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing a matrix along its columns: the source index over row p with column coordinate k is (p, k). -/
theorem lift_ix1_axis1 {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The f32 pattern of minus infinity is the bottom extended real. -/
theorem ofBits_neg_inf_f32 : Ideal.ofBits .f32 0xFF800000#32 = ⊥ := by
  simp [Ideal.ofBits, Ideal.ieee]

/-- A kernel's matmul whose right operand is contracted on its LAST axis, into the zero accumulator, at (r, c):
    the sum over k of lhs (r, k) * rhs (c, k). -/
theorem matmul_transposedRhs_zero_ix2 (M K N : ℕ) {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, (lhs (ix2 r k) : EReal) * (rhs (ix2 c k) : EReal) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact Cert.Lib.PlainDot.transposedRhs_lhs_0 M K N _ _
      | ⟨1, _⟩ => exact (Cert.Lib.PlainDot.transposedRhs_lhs_1 M K N _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact Cert.Lib.PlainDot.transposedRhs_rhs_0 M K N _ _
      | ⟨1, _⟩ => exact (Cert.Lib.PlainDot.transposedRhs_rhs_1 M K N _ _).trans hk)
  exact congrArg₂ (fun a b : EReal => a * b) (congrArg lhs el) (congrArg rhs er)

end Cert.Lib.Keepdims

end
-- ==== Proof.OnlineSoftmax.lean ====
/-
  The online softmax recurrence on one row, as a pure function of extended reals, and its closed form over the reals.

  A row's logits arrive in tiles of 128. The state after a tile is a triple (m, l, a): the running maximum, the running
  sum of exp (logit - m), and the running sum of exp (logit - m) * weight, where the weight of a logit is its entry
  in one fixed column of a 0/1 table. A new tile with logits s and weights o moves the state to
     m' = max m (max of s),   l' = exp (m - m') * l + sum_q exp (s q - m'),   a' = exp (m - m') * a + sum_q exp (s q - m') * o q.
  The recurrence starts from (bot, 0, 0).  When every logit is a real number, after any number of tiles there is a real mu
  with m = mu, l = sum exp (logit - mu), a = sum exp (logit - mu) * weight over all logits seen, because
  exp (mu - mu') * exp (x - mu) = exp (x - mu'); and then a / l does not depend on mu at all:
  a / l = (sum exp logit * weight) / (sum exp logit).
-/
import Idealize.ShloMosaic.PureOps.Ideal

noncomputable section

namespace Cert.OnlineSoftmax

open Idealize.ShloMosaic

/-- One tile of the recurrence. -/
def tileStep (s o : Fin 128 → EReal) (x : EReal × EReal × EReal) : EReal × EReal × EReal :=
  (max x.1 (Finset.univ.fold max ⊥ s),
   Ideal.exp (x.1 - max x.1 (Finset.univ.fold max ⊥ s)) * x.2.1
     + ∑ q : Fin 128, Ideal.exp (s q - max x.1 (Finset.univ.fold max ⊥ s)),
   Ideal.exp (x.1 - max x.1 (Finset.univ.fold max ⊥ s)) * x.2.2
     + ∑ q : Fin 128, Ideal.exp (s q - max x.1 (Finset.univ.fold max ⊥ s)) * o q)

/-- The state after tile `n` (counting from 0), from the start (bot, 0, 0). -/
def run (S O : ℕ → Fin 128 → EReal) : ℕ → EReal × EReal × EReal
  | 0 => tileStep (S 0) (O 0) (⊥, 0, 0)
  | n + 1 => tileStep (S (n + 1)) (O (n + 1)) (run S O n)

theorem run_zero (S O : ℕ → Fin 128 → EReal) : run S O 0 = tileStep (S 0) (O 0) (⊥, 0, 0) := rfl
theorem run_succ (S O : ℕ → Fin 128 → EReal) (n : ℕ) :
    run S O (n + 1) = tileStep (S (n + 1)) (O (n + 1)) (run S O n) := rfl

/-- The coercion of the reals into the extended reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the maximum of two reals. -/
private theorem coe_max' (x y : ℝ) : ((max x y : ℝ) : EReal) = max (x : EReal) (y : EReal) :=
  EReal.coe_strictMono.monotone.map_max

/-- The maximum, from bot, of a family of reals over a finite set is bot on the empty set and a real otherwise. -/
private theorem fold_max_real {ι : Type} [DecidableEq ι] (S : Finset ι) (f : ι → ℝ) :
    (S = ∅ ∧ S.fold max ⊥ (fun q => (f q : EReal)) = ⊥)
      ∨ ∃ τ : ℝ, S.fold max ⊥ (fun q => (f q : EReal)) = (τ : EReal) := by
  induction S using Finset.induction_on with
  | empty => exact Or.inl ⟨rfl, Finset.fold_empty⟩
  | insert a s ha ih =>
    right
    rw [Finset.fold_insert ha]
    rcases ih with ⟨_, h⟩ | ⟨τ, h⟩
    · rw [h]; exact ⟨f a, max_bot_right _⟩
    · rw [h]; exact ⟨max (f a) τ, (coe_max' _ _).symm⟩

/-- Over the 128 lanes of a tile the maximum of real logits is a real. -/
private theorem fold_max_univ (f : Fin 128 → ℝ) :
    ∃ τ : ℝ, Finset.univ.fold max ⊥ (fun q => (f q : EReal)) = (τ : EReal) := by
  rcases fold_max_real (Finset.univ : Finset (Fin 128)) f with ⟨h, _⟩ | h
  · exact absurd h (Finset.univ_nonempty.ne_empty)
  · exact h

/-- One tile from the start (bot, 0, 0): the state is real, with the tile's own maximum as the shift. -/
private theorem tileStep_bot (s o : Fin 128 → ℝ) :
    ∃ μ' : ℝ, tileStep (fun q => (s q : EReal)) (fun q => (o q : EReal)) (⊥, 0, 0)
      = ((μ' : EReal),
         ((∑ q : Fin 128, Real.exp (s q - μ') : ℝ) : EReal),
         ((∑ q : Fin 128, Real.exp (s q - μ') * o q : ℝ) : EReal)) := by
  obtain ⟨τ, hτ⟩ := fold_max_univ s
  refine ⟨τ, ?_⟩
  unfold tileStep
  dsimp only
  rw [hτ, max_bot_left, EReal.bot_sub, Ideal.exp_bot, mul_zero, zero_add, zero_add]
  simp only [← EReal.coe_sub, Ideal.exp_coe, ← EReal.coe_mul, ← coe_sum]

/-- One tile from a real state: the new shift is a real, and the sums are rescaled by exp (mu - mu'). -/
private theorem tileStep_real (s o : Fin 128 → ℝ) (μ l a : ℝ) :
    ∃ μ' : ℝ, tileStep (fun q => (s q : EReal)) (fun q => (o q : EReal)) ((μ : EReal), (l : EReal), (a : EReal))
      = ((μ' : EReal),
         ((Real.exp (μ - μ') * l + ∑ q : Fin 128, Real.exp (s q - μ') : ℝ) : EReal),
         ((Real.exp (μ - μ') * a + ∑ q : Fin 128, Real.exp (s q - μ') * o q : ℝ) : EReal)) := by
  obtain ⟨τ, hτ⟩ := fold_max_univ s
  refine ⟨max μ τ, ?_⟩
  unfold tileStep
  dsimp only
  rw [hτ, ← coe_max']
  simp only [← EReal.coe_sub, Ideal.exp_coe, ← EReal.coe_mul, ← coe_sum, ← EReal.coe_add]

/-- The invariant of the recurrence on real logits: after tile n the state is (mu, sum exp (logit - mu),
    sum exp (logit - mu) * weight) for a real mu, the sums over all logits seen. -/
private theorem run_real (σ ω : ℕ → Fin 128 → ℝ) (n : ℕ) :
    ∃ μ : ℝ, run (fun j q => (σ j q : EReal)) (fun j q => (ω j q : EReal)) n
      = ((μ : EReal),
         ((∑ j ∈ Finset.range (n + 1), ∑ q : Fin 128, Real.exp (σ j q - μ) : ℝ) : EReal),
         ((∑ j ∈ Finset.range (n + 1), ∑ q : Fin 128, Real.exp (σ j q - μ) * ω j q : ℝ) : EReal)) := by
  induction n with
  | zero =>
    obtain ⟨μ', h⟩ := tileStep_bot (σ 0) (ω 0)
    refine ⟨μ', ?_⟩
    rw [run_zero, h, Finset.sum_range_one, Finset.sum_range_one]
  | succ n ih =>
    obtain ⟨μ, hμ⟩ := ih
    obtain ⟨μ', h⟩ := tileStep_real (σ (n + 1)) (ω (n + 1)) μ
      (∑ j ∈ Finset.range (n + 1), ∑ q : Fin 128, Real.exp (σ j q - μ))
      (∑ j ∈ Finset.range (n + 1), ∑ q : Fin 128, Real.exp (σ j q - μ) * ω j q)
    refine ⟨μ', ?_⟩
    rw [run_succ, hμ, h]
    have e : ∀ x : ℝ, Real.exp (μ - μ') * Real.exp (x - μ) = Real.exp (x - μ') := by
      intro x
      rw [← Real.exp_add]
      congr 1
      ring
    have hl : Real.exp (μ - μ') * (∑ j ∈ Finset.range (n + 1), ∑ q : Fin 128, Real.exp (σ j q - μ))
        = ∑ j ∈ Finset.range (n + 1), ∑ q : Fin 128, Real.exp (σ j q - μ') := by
      rw [Finset.mul_sum]
      refine Finset.sum_congr rfl (fun j _ => ?_)
      rw [Finset.mul_sum]
      exact Finset.sum_congr rfl (fun q _ => e _)
    have ha : Real.exp (μ - μ') * (∑ j ∈ Finset.range (n + 1), ∑ q : Fin 128, Real.exp (σ j q - μ) * ω j q)
        = ∑ j ∈ Finset.range (n + 1), ∑ q : Fin 128, Real.exp (σ j q - μ') * ω j q := by
      rw [Finset.mul_sum]
      refine Finset.sum_congr rfl (fun j _ => ?_)
      rw [Finset.mul_sum]
      refine Finset.sum_congr rfl (fun q _ => ?_)
      rw [← mul_assoc, e]
    rw [hl, ha, Finset.sum_range_succ _ (n + 1), Finset.sum_range_succ _ (n + 1)]

/-- After n + 1 tiles of real logits and real weights, a / l is the exp-weighted mean of the weights: the running
    maximum has dropped out. -/
theorem run_div_real (σ ω : ℕ → Fin 128 → ℝ) (n : ℕ) :
    Ideal.div (run (fun j q => (σ j q : EReal)) (fun j q => (ω j q : EReal)) n).2.2
        (run (fun j q => (σ j q : EReal)) (fun j q => (ω j q : EReal)) n).2.1
      = (((∑ j ∈ Finset.range (n + 1), ∑ q : Fin 128, Real.exp (σ j q) * ω j q)
          / (∑ j ∈ Finset.range (n + 1), ∑ q : Fin 128, Real.exp (σ j q)) : ℝ) : EReal) := by
  obtain ⟨μ, h⟩ := run_real σ ω n
  rw [h]
  dsimp only
  have hE : Real.exp (-μ) ≠ 0 := (Real.exp_pos _).ne'
  have hD : (∑ j ∈ Finset.range (n + 1), ∑ q : Fin 128, Real.exp (σ j q)) ≠ 0 :=
    (Finset.sum_pos (fun j _ => Finset.sum_pos (fun q _ => Real.exp_pos _) Finset.univ_nonempty)
      Finset.nonempty_range_add_one).ne'
  have hl : (∑ j ∈ Finset.range (n + 1), ∑ q : Fin 128, Real.exp (σ j q - μ))
      = (∑ j ∈ Finset.range (n + 1), ∑ q : Fin 128, Real.exp (σ j q)) * Real.exp (-μ) := by
    rw [Finset.sum_mul]
    refine Finset.sum_congr rfl (fun j _ => ?_)
    rw [Finset.sum_mul]
    refine Finset.sum_congr rfl (fun q _ => ?_)
    rw [sub_eq_add_neg, Real.exp_add]
  have ha : (∑ j ∈ Finset.range (n + 1), ∑ q : Fin 128, Real.exp (σ j q - μ) * ω j q)
      = (∑ j ∈ Finset.range (n + 1), ∑ q : Fin 128, Real.exp (σ j q) * ω j q) * Real.exp (-μ) := by
    rw [Finset.sum_mul]
    refine Finset.sum_congr rfl (fun j _ => ?_)
    rw [Finset.sum_mul]
    refine Finset.sum_congr rfl (fun q _ => ?_)
    rw [sub_eq_add_neg, Real.exp_add]
    ring
  rw [hl, ha, Ideal.div_coe (mul_ne_zero hD hE), ← EReal.coe_mul]
  congr 1
  field_simp

/-- n tiles of 128 are the first 128 * n indices. -/
private theorem sum_tiles_aux (f : ℕ → ℝ) (n : ℕ) :
    (∑ j ∈ Finset.range n, ∑ q : Fin 128, f (128 * j + q.val)) = ∑ k ∈ Finset.range (128 * n), f k := by
  induction n with
  | zero => simp
  | succ n ih =>
    rw [Finset.sum_range_succ, ih, Nat.mul_succ, Finset.sum_range_add,
      Fin.sum_univ_eq_sum_range (fun q => f (128 * n + q)) 128]

/-- 96 tiles of 128 are the 12288 indices. -/
theorem sum_tiles (f : ℕ → ℝ) :
    (∑ j ∈ Finset.range 96, ∑ q : Fin 128, f (128 * j + q.val)) = ∑ k : Fin 12288, f k.val := by
  rw [sum_tiles_aux f 96]
  exact Finset.sum_range f

/-- Division by 1 is the identity. -/
private theorem div_one' (x : EReal) : Ideal.div x 1 = x := by
  rw [← EReal.coe_one, Ideal.div_coe one_ne_zero, div_one, EReal.coe_one, mul_one]

/-- A softmax taken with any real shift mu and a divisor 1 on the logits, summed over a set H of indices, from 0:
    the shift drops out. -/
theorem softmax_hits_real (σ : Fin 12288 → ℝ) (μ : ℝ) (H : Finset (Fin 12288)) :
    (0 : EReal) + ∑ k ∈ H, Ideal.div (Ideal.exp (Ideal.div (σ k : EReal) 1 - (μ : EReal)))
        ((0 : EReal) + ∑ k' : Fin 12288, Ideal.exp (Ideal.div (σ k' : EReal) 1 - (μ : EReal)))
      = (((∑ k ∈ H, Real.exp (σ k)) / (∑ k : Fin 12288, Real.exp (σ k)) : ℝ) : EReal) := by
  have hE : Real.exp (-μ) ≠ 0 := (Real.exp_pos _).ne'
  have hD : (∑ k : Fin 12288, Real.exp (σ k)) ≠ 0 :=
    (Finset.sum_pos (fun k _ => Real.exp_pos _) Finset.univ_nonempty).ne'
  have e : ∀ k : Fin 12288, Ideal.exp (Ideal.div (σ k : EReal) 1 - (μ : EReal))
      = ((Real.exp (σ k) * Real.exp (-μ) : ℝ) : EReal) := by
    intro k
    rw [div_one', ← EReal.coe_sub, Ideal.exp_coe, sub_eq_add_neg, Real.exp_add]
  simp only [e]
  rw [zero_add, zero_add, ← coe_sum, ← Finset.sum_mul]
  simp only [Ideal.div_coe (mul_ne_zero hD hE), ← EReal.coe_mul]
  rw [← coe_sum, ← Finset.sum_mul, ← Finset.sum_mul]
  congr 1
  field_simp

end Cert.OnlineSoftmax

end
-- ==== Proof.Payloads.lean ====
/-
  One grid point of the kernel's body, read at the ideal values index by index.

  At a point the body holds a 512-row block x0 of X, a 128-row block x1 of the centroids and the matching 128 rows x2 of the
  0/1 class table, and the three running quantities of the 512 rows: the maximum mo, the normaliser lo (both 512 x 1) and the
  class accumulator ao (512 x 4096). The logits of row p against the block's 128 centroids are the dot products
  sum_d x0 (p, d) * x1 (q, d). What the body computes for row p and class c is exactly one tile of the online softmax
  recurrence applied to (mo p, lo p, ao (p, c)) with those logits and with column c of x2 as the weights; the last point's
  output is the accumulator divided by the normaliser.
-/
import proofs.«419428_j32246614458630_2_alg».proof.Proof.Gen.KernelIdeal.Skeleton
import proofs.«419428_j32246614458630_2_alg».proof.Proof.LibPlainDot
import proofs.«419428_j32246614458630_2_alg».proof.Proof.LibKeepdims
import proofs.«419428_j32246614458630_2_alg».proof.Proof.OnlineSoftmax
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.OnlineSoftmax Cert.Lib.Keepdims

/-- The logits of row `p` of an X block against the 128 rows of a centroid block. -/
def tileLogits (x0 : FVec Ideal S512x1024 .f32) (x1 : FVec Ideal S128x1024 .f32) (p : Fin 512) (q : Fin 128) : EReal :=
  ∑ d : Fin 1024, (x0 (ix2 p d) : EReal) * (x1 (ix2 q d) : EReal)

/-- The two printed dimension-number records are the library's. -/
theorem dot_nt_eq : dot_S512x1024_S128x1024_S512x128_1_1_0_0_n_n = DotDims.transposedRhs 512 1024 128 := rfl
theorem dot_nn_eq : dot_S512x128_S128x4096_S512x4096_1_0_0_1_n_n = DotDims.plain 512 128 4096 := rfl

/-! ## The body's values at an index -/

/-- The maximum over the 128 lanes of a row, kept as a column: at (p, 0) the fold of max from bottom over the row. -/
theorem rowmax_apply (src : FVec Ideal S512x128 .f32) (h : S512x128.Reduces [1] S512) (hφ : FKind.Formats .f32)
    (hacc : (0xFF800000#32 : BitVec (FTy.bits .f32)) = FKind.maximumf.neutral .f32 hφ) (hc : S512.ShapeCasts S512x1) (p : Fin 512) :
    shapeCast S512x1 (multiReduction (F := Ideal) .maximumf [1] S512 src 0xFF800000#32 h hφ hacc) hc (ix2 p 0)
      = Finset.univ.fold max ⊥ (fun q : Fin 128 => (src (ix2 p q) : EReal)) := by
  refine (shapeCast_a_a1_apply _ hc p 0).trans ?_
  refine (Ideal.multiReduction_maximumf_single src _ h hφ hacc (ix1 p)).trans ?_
  have hb : (FloatOps.ofBits (F := Ideal) .f32 0xFF800000#32 : EReal) = ⊥ := ofBits_neg_inf_f32
  have hf : (src ∘ h.lift (ix1 p)) = fun q : Fin 128 => (src (ix2 p q) : EReal) :=
    funext fun q => congrArg src (lift_ix1_axis1 h p q)
  rw [hb, hf]
  rfl

/-- The sum over the 128 lanes of a row, kept as a column: at (p, 0) the sum over the row. -/
theorem rowsum_apply (src : FVec Ideal S512x128 .f32) (h : S512x128.Reduces [1] S512) (hφ : FKind.Formats .f32)
    (hacc : (0x00000000#32 : BitVec (FTy.bits .f32)) = FKind.add.neutral .f32 hφ) (hc : S512.ShapeCasts S512x1) (p : Fin 512) :
    shapeCast S512x1 (multiReduction (F := Ideal) .add [1] S512 src 0x00000000#32 h hφ hacc) hc (ix2 p 0)
      = ∑ q : Fin 128, (src (ix2 p q) : EReal) := by
  refine (shapeCast_a_a1_apply _ hc p 0).trans ?_
  refine (Ideal.multiReduction_add_single src _ h hφ hacc (ix1 p)).trans ?_
  exact Finset.sum_congr rfl fun q _ => congrArg src (lift_ix1_axis1 h p q)

/-- The product of the X block with the transposed centroid block, at (p, q): the logit of row p against centroid q. -/
theorem pay7_apply (x0 : FVec Ideal S512x1024 .f32) (x1 : FVec Ideal S128x1024 .f32) (p : Fin 512) (q : Fin 128) :
    (k0_pay7 (F := Ideal) x0 x1 (ix2 p q) : EReal) = tileLogits x0 x1 p q := by
  unfold k0_pay7 tileLogits
  show FloatOps.matmul dot_S512x1024_S128x1024_S512x128_1_1_0_0_n_n (some .fp32) x0 x1
      (constant S512x128 .f32 0x00000000#32) (ix2 p q) = _
  rw [dot_nt_eq]
  exact matmul_transposedRhs_zero_ix2 512 1024 128 (some .fp32) x0 x1 p q

/-- The new running maximum of row p. -/
theorem pay8_apply (x0 : FVec Ideal S512x1024 .f32) (x1 : FVec Ideal S128x1024 .f32) (mo : FVec Ideal S512x1 .f32) (p : Fin 512) :
    (k0_pay8 (F := Ideal) x0 x1 mo (ix2 p 0) : EReal)
      = max (mo (ix2 p 0) : EReal) (Finset.univ.fold max ⊥ (tileLogits x0 x1 p)) := by
  unfold k0_pay8
  refine (maximumf_apply _ _ _).trans ?_
  refine congrArg (max (mo (ix2 p 0) : EReal)) ?_
  refine (rowmax_apply _ _ _ _ _ p).trans ?_
  exact congrArg (Finset.univ.fold max ⊥) (funext fun q => pay7_apply x0 x1 p q)

/-- The rescaling factor of row p: exp (old maximum - new maximum). -/
theorem pay9_apply (x0 : FVec Ideal S512x1024 .f32) (x1 : FVec Ideal S128x1024 .f32) (mo mo' : FVec Ideal S512x1 .f32) (p : Fin 512) :
    (k0_pay9 (F := Ideal) x0 x1 mo mo' (ix2 p 0) : EReal)
      = Ideal.exp ((mo' (ix2 p 0) : EReal) - k0_pay8 (F := Ideal) x0 x1 mo (ix2 p 0)) := rfl

/-- The tile's weights at (p, q): exp (logit - new maximum of row p). -/
theorem pay10_apply (x0 : FVec Ideal S512x1024 .f32) (x1 : FVec Ideal S128x1024 .f32) (mo : FVec Ideal S512x1 .f32)
    (p : Fin 512) (q : Fin 128) :
    (k0_pay10 (F := Ideal) x0 x1 mo (ix2 p q) : EReal)
      = Ideal.exp (tileLogits x0 x1 p q - k0_pay8 (F := Ideal) x0 x1 mo (ix2 p 0)) := by
  unfold k0_pay10
  show Ideal.exp ((k0_pay7 (F := Ideal) x0 x1 (ix2 p q) : EReal)
      - broadcastTo S512x128 (k0_pay8 (F := Ideal) x0 x1 mo) broadcasts_S512x1_S512x128 (ix2 p q)) = _
  rw [broadcastTo_a1_ab_apply, pay7_apply]

/-- The new normaliser of row p, in terms of the new maximum. -/
theorem pay11_apply (x0 : FVec Ideal S512x1024 .f32) (x1 : FVec Ideal S128x1024 .f32) (mo lo : FVec Ideal S512x1 .f32) (p : Fin 512) :
    (k0_pay11 (F := Ideal) x0 x1 mo mo lo (ix2 p 0) : EReal)
      = Ideal.exp ((mo (ix2 p 0) : EReal) - k0_pay8 (F := Ideal) x0 x1 mo (ix2 p 0)) * (lo (ix2 p 0) : EReal)
        + ∑ q : Fin 128, Ideal.exp (tileLogits x0 x1 p q - k0_pay8 (F := Ideal) x0 x1 mo (ix2 p 0)) := by
  unfold k0_pay11
  rw [shapeCast_self]
  refine (addf_apply _ _ _).trans ?_
  refine congrArg₂ (fun a b : EReal => a + b) ?_ ?_
  · refine (mulf_apply _ _ _).trans ?_
    rw [pay9_apply]
  · refine (rowsum_apply _ _ _ _ _ p).trans ?_
    exact Finset.sum_congr rfl fun q _ => pay10_apply x0 x1 mo p q

/-- The new class accumulator at (p, c), in terms of the new maximum. -/
theorem pay12_apply (x0 : FVec Ideal S512x1024 .f32) (x1 : FVec Ideal S128x1024 .f32) (x2 : FVec Ideal S128x4096 .bf16)
    (mo : FVec Ideal S512x1 .f32) (ao : FVec Ideal S512x4096 .f32) (p : Fin 512) (c : Fin 4096) :
    (k0_pay12 (F := Ideal) x0 x1 mo mo x2 ao (ix2 p c) : EReal)
      = Ideal.exp ((mo (ix2 p 0) : EReal) - k0_pay8 (F := Ideal) x0 x1 mo (ix2 p 0)) * (ao (ix2 p c) : EReal)
        + ∑ q : Fin 128, Ideal.exp (tileLogits x0 x1 p q - k0_pay8 (F := Ideal) x0 x1 mo (ix2 p 0)) * (x2 (ix2 q c) : EReal) := by
  unfold k0_pay12
  refine (addf_apply _ _ _).trans ?_
  refine congrArg₂ (fun a b : EReal => a + b) ?_ ?_
  · refine (mulf_apply _ _ _).trans ?_
    rw [broadcastTo_a1_ab_apply, pay9_apply]
  · show FloatOps.matmul dot_S512x128_S128x4096_S512x4096_1_0_0_1_n_n none
        (truncf .bf16 (k0_pay10 (F := Ideal) x0 x1 mo) bitsLt_bf16_f32)
        (shapeCast S128x4096 x2 shapeCasts_S128x4096_S128x4096) (constant S512x4096 .f32 0x00000000#32) (ix2 p c) = _
    rw [dot_nn_eq, shapeCast_self]
    refine (Cert.Lib.PlainDot.matmul_plain_zero_ix2 512 128 4096 none _ _ p c).trans ?_
    refine Finset.sum_congr rfl fun q _ => ?_
    rw [truncf_apply, pay10_apply]

/-- The three stored quantities at row `p` (and class `c`) are one tile of the recurrence. -/
theorem step_apply (x0 : FVec Ideal S512x1024 .f32) (x1 : FVec Ideal S128x1024 .f32) (x2 : FVec Ideal S128x4096 .bf16)
    (mo lo : FVec Ideal S512x1 .f32) (ao : FVec Ideal S512x4096 .f32) (p : Fin 512) (c : Fin 4096) :
    ((k0_pay8 (F := Ideal) x0 x1 mo (ix2 p 0), k0_pay11 (F := Ideal) x0 x1 mo mo lo (ix2 p 0),
        k0_pay12 (F := Ideal) x0 x1 mo mo x2 ao (ix2 p c)) : EReal × EReal × EReal)
      = tileStep (tileLogits x0 x1 p) (fun q => (x2 (ix2 q c) : EReal))
          ((mo (ix2 p 0) : EReal), (lo (ix2 p 0) : EReal), (ao (ix2 p c) : EReal)) := by
  have h8 := pay8_apply x0 x1 mo p
  have h11 := pay11_apply x0 x1 mo lo p
  have h12 := pay12_apply x0 x1 x2 mo ao p c
  rw [h8] at h11 h12
  unfold tileStep
  exact Prod.ext h8 (Prod.ext h11 h12)

/-- The last point's output: the accumulator over the normaliser. -/
theorem pay3_apply (a : FVec Ideal S512x4096 .f32) (l : FVec Ideal S512x1 .f32) (p : Fin 512) (c : Fin 4096) :
    k0_pay3 (F := Ideal) a l (ix2 p c) = Ideal.div (a (ix2 p c)) (l (ix2 p 0)) := by
  unfold k0_pay3
  refine (divf_apply _ _ _).trans ?_
  rw [broadcastTo_a1_ab_apply]

/-- The two stores through a cast to the same shape store the value itself. -/
theorem pay1_eq (v : FVec Ideal S512x4096 .f32) : k0_pay1 (F := Ideal) v = v := by
  unfold k0_pay1
  exact shapeCast_self v _
theorem pay2_eq (v : FVec Ideal S512x1 .f32) : k0_pay2 (F := Ideal) v = v := by
  unfold k0_pay2
  exact shapeCast_self v _

/-- The reset values of a row's first tile: the maximum starts at minus infinity, the two sums at zero. -/
theorem pay4_apply (p : Fin 512) : ((k0_pay4 (F := Ideal)) (ix2 p 0) : EReal) = ⊥ := by
  unfold k0_pay4
  rw [shapeCast_self]
  exact ofBits_neg_inf_f32
theorem pay5_apply (p : Fin 512) : ((k0_pay5 (F := Ideal)) (ix2 p 0) : EReal) = 0 := by
  unfold k0_pay5
  rw [shapeCast_self]
  exact Ideal.ofBits_zero_f32
theorem pay6_apply (p : Fin 512) (c : Fin 4096) : ((k0_pay6 (F := Ideal)) (ix2 p c) : EReal) = 0 := by
  unfold k0_pay6
  rw [shapeCast_self]
  exact Ideal.ofBits_zero_f32

end Cert.KernelIdeal.Pay

end
-- ==== Proof.Blocks.lean ====
/-
  The point's blocks as entries of the arrays.

  The grid is 32 row tiles by 96 centroid tiles, walked row tile by row tile: point t is row tile t / 96 and centroid tile
  t % 96. Its X block is rows 512 (t / 96) .. + 511 of X, its centroid block rows 128 (t % 96) .. + 127 of the centroids, its
  class-table block the same rows of the table. So the logits of block row p against the centroid block are the logits of
  global row 512 (t / 96) + p against centroids 128 (t % 96) + q, and column c of the table block is the class's weights of
  those centroids. The arrays are read through total accessors (zero outside their extents) so that the tiles of a row can
  be indexed by a plain natural number.
-/
import proofs.«419428_j32246614458630_2_alg».proof.Proof.CaseSteps
import proofs.«419428_j32246614458630_2_alg».proof.Proof.Payloads

set_option maxRecDepth 16384

noncomputable section

namespace Cert.KernelIdeal.Blk

open Cert.KernelIdeal Cert.KernelIdeal.Gen Idealize.ShloMosaic Idealize.ShloMosaic.TcCoe Idealize.ShloMosaic.ValueIdx Idealize.SL.Sem
open Cert.KernelIdeal.Steps Cert.KernelIdeal.Pay

variable (m : (ℓ : Loc nD τ sig) → Buf (Elt Ideal) ℓ)

/-- The three arrays the launch reads, as the region finds them, at their literal types. -/
abbrev xarr (c : Dev nD) : FVec Ideal S16384x1024 .f32 := V m c main_arg0
abbrev carr (c : Dev nD) : FVec Ideal S12288x1024 .f32 := V m c main_arg1
abbrev oarr (c : Dev nD) : FVec Ideal S12288x4096 .bf16 := V m c main_v0

/-- Total accessors: the entry inside the array, zero outside. -/
def Xn (c : Dev nD) (r d : ℕ) : EReal := if h : r < 16384 ∧ d < 1024 then (xarr m c (ix2 ⟨r, h.1⟩ ⟨d, h.2⟩) : EReal) else 0
def Cn (c : Dev nD) (k d : ℕ) : EReal := if h : k < 12288 ∧ d < 1024 then (carr m c (ix2 ⟨k, h.1⟩ ⟨d, h.2⟩) : EReal) else 0
def On (c : Dev nD) (k cl : ℕ) : EReal := if h : k < 12288 ∧ cl < 4096 then (oarr m c (ix2 ⟨k, h.1⟩ ⟨cl, h.2⟩) : EReal) else 0

/-- The logits of global row `r` against centroid tile `j`, and class `cl`'s weights of that tile. -/
def rowLogits (c : Dev nD) (r j : ℕ) (q : Fin 128) : EReal := ∑ d : Fin 1024, Xn m c r d.val * Cn m c (128 * j + q.val) d.val
def colWeights (c : Dev nD) (cl j : ℕ) (q : Fin 128) : EReal := On m c (128 * j + q.val) cl

/-- The printed index maps, decided over the grid: rows move with t / 96, centroids and table rows with t % 96. -/
theorem idx_facts : ∀ t : Fin cfg0.N,
    win0_0.index t (0 : Fin 2) = t.val / 96 ∧ win0_0.index t (1 : Fin 2) = 0
    ∧ win0_1.index t (0 : Fin 2) = t.val % 96 ∧ win0_1.index t (1 : Fin 2) = 0
    ∧ win0_2.index t (0 : Fin 2) = t.val % 96 ∧ win0_2.index t (1 : Fin 2) = 0
    ∧ win0_3.index t (0 : Fin 2) = t.val / 96 ∧ win0_3.index t (1 : Fin 2) = 0 :=
  (by decide +kernel : ∀ t : Fin grid0.N, _)

theorem xblk_apply (c : Dev nD) (t : Fin cfg0.N) (p : Fin 512) (d : Fin 1024) :
    (xblk m c t (ix2 p d) : EReal) = Xn m c (512 * (t.val / 96) + p.val) d.val := by
  have hN : t.val < 3072 := lt_of_lt_of_eq t.isLt (show cfg0.N = 3072 from N_0)
  have hp := p.isLt
  obtain ⟨e0, e1, -⟩ := idx_facts t
  have hr : 512 * (t.val / 96) + p.val < 16384 ∧ d.val < 1024 := ⟨by omega, d.isLt⟩
  unfold Xn; rw [dif_pos hr]
  show V m c main_arg0 (((cfg0.win 0).blk t).view.emb (ix2 p d)) = V m c main_arg0 (ix2 ⟨_, hr.1⟩ ⟨_, hr.2⟩)
  refine congrArg _ (funext fun a => Fin.ext ?_)
  match a with
  | ⟨0, _⟩ => show win0_0.index t (0 : Fin 2) * 512 + 1 * p.val = 512 * (t.val / 96) + p.val; rw [e0]; omega
  | ⟨1, _⟩ => show win0_0.index t (1 : Fin 2) * 1024 + 1 * d.val = d.val; rw [e1]; omega

theorem cblk_apply (c : Dev nD) (t : Fin cfg0.N) (q : Fin 128) (d : Fin 1024) :
    (cblk m c t (ix2 q d) : EReal) = Cn m c (128 * (t.val % 96) + q.val) d.val := by
  have hq := q.isLt
  obtain ⟨-, -, e0, e1, -⟩ := idx_facts t
  have hr : 128 * (t.val % 96) + q.val < 12288 ∧ d.val < 1024 := ⟨by omega, d.isLt⟩
  unfold Cn; rw [dif_pos hr]
  show V m c main_arg1 (((cfg0.win 1).blk t).view.emb (ix2 q d)) = V m c main_arg1 (ix2 ⟨_, hr.1⟩ ⟨_, hr.2⟩)
  refine congrArg _ (funext fun a => Fin.ext ?_)
  match a with
  | ⟨0, _⟩ => show win0_1.index t (0 : Fin 2) * 128 + 1 * q.val = 128 * (t.val % 96) + q.val; rw [e0]; omega
  | ⟨1, _⟩ => show win0_1.index t (1 : Fin 2) * 1024 + 1 * d.val = d.val; rw [e1]; omega

theorem oblk_apply (c : Dev nD) (t : Fin cfg0.N) (q : Fin 128) (cl : Fin 4096) :
    (oblk m c t (ix2 q cl) : EReal) = On m c (128 * (t.val % 96) + q.val) cl.val := by
  have hq := q.isLt
  obtain ⟨-, -, -, -, e0, e1, -⟩ := idx_facts t
  have hr : 128 * (t.val % 96) + q.val < 12288 ∧ cl.val < 4096 := ⟨by omega, cl.isLt⟩
  unfold On; rw [dif_pos hr]
  show V m c main_v0 (((cfg0.win 2).blk t).view.emb (ix2 q cl)) = V m c main_v0 (ix2 ⟨_, hr.1⟩ ⟨_, hr.2⟩)
  refine congrArg _ (funext fun a => Fin.ext ?_)
  match a with
  | ⟨0, _⟩ => show win0_2.index t (0 : Fin 2) * 128 + 1 * q.val = 128 * (t.val % 96) + q.val; rw [e0]; omega
  | ⟨1, _⟩ => show win0_2.index t (1 : Fin 2) * 4096 + 1 * cl.val = cl.val; rw [e1]; omega

/-- The block's logits are the global row's logits against the point's centroid tile. -/
theorem tileLogits_blk (c : Dev nD) (t : Fin cfg0.N) (p : Fin 512) :
    tileLogits (xblk m c t) (cblk m c t) p = rowLogits m c (512 * (t.val / 96) + p.val) (t.val % 96) := by
  funext q
  unfold tileLogits rowLogits
  exact Finset.sum_congr rfl fun d _ => by rw [xblk_apply, cblk_apply]

/-- Column `cl` of the table block is the class's weights of the point's centroid tile. -/
theorem weights_blk (c : Dev nD) (t : Fin cfg0.N) (cl : Fin 4096) :
    (fun q : Fin 128 => (oblk m c t (ix2 q cl) : EReal)) = colWeights m c cl.val (t.val % 96) := by
  funext q
  unfold colWeights
  exact oblk_apply m c t q cl

/-- What the result array ends holding: at (r, c), the accumulator over the normaliser after the 96 tiles of row r's logits
    with class c's weights. -/
def G (c : Dev nD) : FVec Ideal S16384x4096 .f32 := fun i =>
  Ideal.div (Cert.OnlineSoftmax.run (rowLogits m c (i 0).val) (colWeights m c (i 1).val) 95).2.2
    (Cert.OnlineSoftmax.run (rowLogits m c (i 0).val) (colWeights m c (i 1).val) 95).2.1

end Cert.KernelIdeal.Blk

end
-- ==== Proof.Invariant.lean ====
/-
  The carried quantities are the online softmax recurrence, point by point.

  At point n = 96 i + j, for block row p and class c, the running maximum and normaliser at row p and the accumulator at
  (p, c) are the recurrence's state after tile j on the logits of global row 512 i + p and class c's weights: at j = 0 the
  body resets to (minus infinity, 0, 0) and applies one tile; at j > 0 it applies one tile to what point n - 1 left, which is
  the state after tile j - 1 of the same row. At j = 95 the output block is the accumulator over the normaliser.
-/
import proofs.«419428_j32246614458630_2_alg».proof.Proof.Blocks

set_option maxRecDepth 16384

noncomputable section

namespace Cert.KernelIdeal.Inv

open Cert.KernelIdeal Cert.KernelIdeal.Gen Idealize.ShloMosaic Idealize.ShloMosaic.TcCoe Idealize.ShloMosaic.ValueIdx Idealize.SL.Sem
open Cert.KernelIdeal.Steps Cert.KernelIdeal.Pay Cert.KernelIdeal.Blk Cert.OnlineSoftmax

variable (m : (ℓ : Loc nD τ sig) → Buf (Elt Ideal) ℓ)

/-- A row's first tile: the reset values, then one tile. -/
theorem first_eq (c : Dev nD) (t : Fin cfg0.N) (h0 : t.val % 96 = 0) (p : Fin 512) (cl : Fin 4096) :
    ((((outsAt0 m c t.val t.isLt).2.1 : FVec Ideal S512x1 .f32) (ix2 p 0), ((outsAt0 m c t.val t.isLt).2.2.1 : FVec Ideal S512x1 .f32) (ix2 p 0),
        ((outsAt0 m c t.val t.isLt).2.2.2 : FVec Ideal S512x4096 .f32) (ix2 p cl)) : EReal × EReal × EReal)
      = run (rowLogits m c (512 * (t.val / 96) + p.val)) (colWeights m c cl.val) 0 := by
  have hN : t.val < 3072 := lt_of_lt_of_eq t.isLt (show cfg0.N = 3072 from N_0)
  have h1 : ¬t.val % 96 = 95 := by omega
  obtain ⟨e0, e1, e2⟩ := Steps.first m c t h0 h1
  rw [e0, e1, e2, pay2_eq, pay1_eq, step_apply, pay4_apply, pay5_apply, pay6_apply, tileLogits_blk, weights_blk, h0]
  rfl

/-- A later tile: one tile applied to the state the point before left. -/
theorem later_eq (c : Dev nD) (n : ℕ) (h : n + 1 < cfg0.N) (h0 : ¬(n + 1) % 96 = 0) (p : Fin 512) (cl : Fin 4096)
    (ih : ((((outsAt0 m c n (Nat.lt_of_succ_lt h)).2.1 : FVec Ideal S512x1 .f32) (ix2 p 0), ((outsAt0 m c n (Nat.lt_of_succ_lt h)).2.2.1 : FVec Ideal S512x1 .f32) (ix2 p 0),
        ((outsAt0 m c n (Nat.lt_of_succ_lt h)).2.2.2 : FVec Ideal S512x4096 .f32) (ix2 p cl)) : EReal × EReal × EReal)
      = run (rowLogits m c (512 * (n / 96) + p.val)) (colWeights m c cl.val) (n % 96)) :
    ((((outsAt0 m c (n + 1) h).2.1 : FVec Ideal S512x1 .f32) (ix2 p 0), ((outsAt0 m c (n + 1) h).2.2.1 : FVec Ideal S512x1 .f32) (ix2 p 0),
        ((outsAt0 m c (n + 1) h).2.2.2 : FVec Ideal S512x4096 .f32) (ix2 p cl)) : EReal × EReal × EReal)
      = run (rowLogits m c (512 * ((n + 1) / 96) + p.val)) (colWeights m c cl.val) ((n + 1) % 96) := by
  have hN : n + 1 < 3072 := lt_of_lt_of_eq h (show cfg0.N = 3072 from N_0)
  have hd : (n + 1) / 96 = n / 96 := by omega
  have hm : (n + 1) % 96 = n % 96 + 1 := by omega
  have key : (outsAt0 m c (n + 1) h).2.1 = k0_pay2 (k0_pay8 (xblk m c ⟨n + 1, h⟩) (cblk m c ⟨n + 1, h⟩) (outsAt0 m c n (Nat.lt_of_succ_lt h)).2.1)
      ∧ (outsAt0 m c (n + 1) h).2.2.1 = k0_pay11 (xblk m c ⟨n + 1, h⟩) (cblk m c ⟨n + 1, h⟩) (outsAt0 m c n (Nat.lt_of_succ_lt h)).2.1 (outsAt0 m c n (Nat.lt_of_succ_lt h)).2.1 (outsAt0 m c n (Nat.lt_of_succ_lt h)).2.2.1
      ∧ (outsAt0 m c (n + 1) h).2.2.2 = k0_pay1 (k0_pay12 (xblk m c ⟨n + 1, h⟩) (cblk m c ⟨n + 1, h⟩) (outsAt0 m c n (Nat.lt_of_succ_lt h)).2.1 (outsAt0 m c n (Nat.lt_of_succ_lt h)).2.1 (oblk m c ⟨n + 1, h⟩) (outsAt0 m c n (Nat.lt_of_succ_lt h)).2.2.2) := by
    by_cases h1 : (n + 1) % 96 = 95
    · exact (Steps.last m c ⟨n + 1, h⟩ h0 h1).2
    · exact Steps.middle m c ⟨n + 1, h⟩ h0 h1
  obtain ⟨e0, e1, e2⟩ := key
  rw [e0, e1, e2, pay2_eq, pay1_eq, step_apply, ih, tileLogits_blk, weights_blk]
  dsimp only
  rw [hd, hm]
  rfl

/-- After point `n` the three carried quantities at (p, c) are the recurrence's state after tile n % 96 of row 512 (n / 96) + p. -/
theorem scratch_eq (c : Dev nD) (n : ℕ) (h : n < cfg0.N) (p : Fin 512) (cl : Fin 4096) :
    ((((outsAt0 m c n h).2.1 : FVec Ideal S512x1 .f32) (ix2 p 0), ((outsAt0 m c n h).2.2.1 : FVec Ideal S512x1 .f32) (ix2 p 0),
        ((outsAt0 m c n h).2.2.2 : FVec Ideal S512x4096 .f32) (ix2 p cl)) : EReal × EReal × EReal)
      = run (rowLogits m c (512 * (n / 96) + p.val)) (colWeights m c cl.val) (n % 96) := by
  induction n with
  | zero => exact first_eq m c ⟨0, h⟩ rfl p cl
  | succ n ih =>
    by_cases h0 : (n + 1) % 96 = 0
    · have := first_eq m c ⟨n + 1, h⟩ h0 p cl
      dsimp only at this
      rw [this, h0]
    · exact later_eq m c n h h0 p cl (ih (Nat.lt_of_succ_lt h))

/-- After a row's last tile the output block at (p, c) is the accumulator over the normaliser of the finished recurrence. -/
theorem out_eq (c : Dev nD) (t : Fin cfg0.N) (h1 : t.val % 96 = 95) (p : Fin 512) (cl : Fin 4096) :
    (((outsAt0 m c t.val t.isLt).1 : FVec Ideal S512x4096 .f32) (ix2 p cl) : EReal)
      = Ideal.div (run (rowLogits m c (512 * (t.val / 96) + p.val)) (colWeights m c cl.val) 95).2.2
          (run (rowLogits m c (512 * (t.val / 96) + p.val)) (colWeights m c cl.val) 95).2.1 := by
  have h0 : ¬t.val % 96 = 0 := by omega
  obtain ⟨eo, e0, e1, e2⟩ := Steps.last m c t h0 h1
  have hs := scratch_eq m c t.val t.isLt p cl
  rw [e0, e1, e2, h1] at hs
  rw [eo, pay3_apply, ← hs]

end Cert.KernelIdeal.Inv

end
-- ==== Proof.KernelValue.lean ====
/-
  From blocks to the result array.

  The output window writes its block back only at a row tile's last point, t % 96 = 95, and that block is rows
  512 (t / 96) .. + 511 of the result, all 4096 columns. What it writes at block row p, column c is the finished
  recurrence's accumulator over normaliser for global row 512 (t / 96) + p: the function G read through the block. The 32
  written blocks tile the 16384 rows, so the array ends holding G.
-/
import proofs.«419428_j32246614458630_2_alg».proof.Proof.Invariant
import proofs.«419428_j32246614458630_2_alg».proof.Proof.Gen.KernelIdeal.Value

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.Blk

variable (m : (ℓ : Loc nD τ sig) → Buf (Elt Ideal) ℓ)

/-- The function G at an index with row r and column cl. -/
private theorem G_apply (c : Dev nD) (i : S16384x4096.Idx) (r cl : ℕ) (h0 : (i 0).val = r) (h1 : (i 1).val = cl) :
    G m c i = Ideal.div (Cert.OnlineSoftmax.run (rowLogits m c r) (colWeights m c cl) 95).2.2
      (Cert.OnlineSoftmax.run (rowLogits m c r) (colWeights m c cl) 95).2.1 := by
  subst h0 h1; rfl

/-- At a row tile's last point, entry (p, cl) of the output block is G at the entry's place in the result: row
    512 (t / 96) + p, column cl. -/
private theorem out_entry (c : Dev nD) (t : Fin cfg0.N) (h1 : t.val % 96 = 95) (y : S512x4096.Idx) :
    ((outsAt0 m c t.val t.isLt).1 : FVec Ideal S512x4096 .f32) y = G m c (((cfg0.win 3).blk t).view.emb y) := by
  obtain ⟨p, cl, rfl⟩ : ∃ (p : Fin 512) (cl : Fin 4096), y = ix2 p cl := ⟨y 0, y 1, eq_ix2 y⟩
  obtain ⟨-, -, -, -, -, -, e0, e1⟩ := idx_facts t
  have c0 : ((((cfg0.win 3).blk t).view.emb (ix2 p cl)) 0).val = 512 * (t.val / 96) + p.val := by
    show win0_3.index t (0 : Fin 2) * 512 + 1 * p.val = _; rw [e0]; omega
  have c1 : ((((cfg0.win 3).blk t).view.emb (ix2 p cl)) 1).val = cl.val := by
    show win0_3.index t (1 : Fin 2) * 4096 + 1 * cl.val = _; rw [e1]; omega
  rw [G_apply m c _ _ _ c0 c1]
  exact Inv.out_eq m c t h1 p cl

/-- An index of the result is in point t's block exactly when each coordinate is in the block's range on its axis. -/
private theorem mem_blk (t : Fin cfg0.N) (i : S16384x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v1).slice (win0_3.rect t)).set ↔ _
  rw [View.set_slice_whole, Rect.mem_set_unit]
  exact Iff.rfl

/-- What a flushing point writes back is its block of `G`. -/
theorem flushed_eq (c : Dev nD) (t : Fin cfg0.N) (hf : (cfg0.win 3).flush t = true) :
    (dats m 0 c).flushed 3 t = ((cfg0.win 3).blk t).view.read (Elt Ideal) (G m c) := by
  have h1 : t.val % 96 = 95 := (flush0_3 t).mp hf
  rw [Cert.KernelIdeal.Value.flushed3]
  funext y
  show ((outsAt0 m c t.val t.isLt).1 : FVec Ideal S512x4096 .f32) y = G m c (((cfg0.win 3).blk t).view.emb y)
  exact out_entry m c t h1 y

/-- Every index of the result lies in some flushing point's block. -/
theorem cover (c : Dev nD) (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 3072 := N_0
  obtain ⟨t, ht⟩ : ∃ t : Fin cfg0.N, t.val = 96 * ((i 0).val / 512) + 95 := ⟨⟨96 * ((i 0).val / 512) + 95, by omega⟩, rfl⟩
  obtain ⟨-, -, -, -, -, -, e0, e1⟩ := idx_facts t
  refine ⟨t, (flush0_3 t).mpr (by omega), ?_⟩
  rw [mem_blk]
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 4096 ≤ (i 1).val ∧ (i 1).val < win0_3.index t (1 : Fin 2) * 4096 + 4096
    rw [e1]; omega

/-- The result array after the run is `G`. -/
theorem final (c : Dev nD) : (dats m 0 c).arrAt 3 cfg0.N = G m c :=
  (dats m 0 c).arrAt_eq_of_cover 3 (G m c) (flushed_eq m c) (cover c)

end Cert.KernelIdeal.KValue

end
-- ==== Proof.Target.lean ====
/-
  What both programs compute, over the reals.

  For real arrays x (16384 x 1024), cn (12288 x 1024) and integer labels lab (12288):
    logit r k  = sum_d x (r, d) * cn (k, d)
    hot k c    = 1 if label k, read as a signed integer, is c, else 0
    score (r, c) = (sum_k exp (logit r k) * hot k c) / (sum_k exp (logit r k)),
  the total softmax weight of the centroids labelled c. A label outside [0, 4096) is hot for no class.
-/
import Idealize.ShloMosaic.PureOps.Ideal
import Idealize.ShloMosaic.Lib.ValueIdx

noncomputable section

namespace Cert.Target

open Idealize.ShloMosaic Idealize.ShloMosaic.ValueIdx

def logit (x : (⟨2, ![16384, 1024]⟩ : Shape).Idx → ℝ) (cn : (⟨2, ![12288, 1024]⟩ : Shape).Idx → ℝ)
    (r : Fin 16384) (k : Fin 12288) : ℝ :=
  ∑ d : Fin 1024, x (ix2 r d) * cn (ix2 k d)

def hot (lab : (⟨1, ![12288]⟩ : Shape).Idx → BitVec 32) (k : Fin 12288) (c : Fin 4096) : ℝ :=
  if (lab (ix1 k)).toInt = (c.val : ℤ) then 1 else 0

def score (x : (⟨2, ![16384, 1024]⟩ : Shape).Idx → ℝ) (cn : (⟨2, ![12288, 1024]⟩ : Shape).Idx → ℝ)
    (lab : (⟨1, ![12288]⟩ : Shape).Idx → BitVec 32) (i : (⟨2, ![16384, 4096]⟩ : Shape).Idx) : ℝ :=
  (∑ k : Fin 12288, Real.exp (logit x cn ⟨(i 0).val, (i 0).isLt⟩ k) * hot lab k ⟨(i 1).val, (i 1).isLt⟩)
    / (∑ k : Fin 12288, Real.exp (logit x cn ⟨(i 0).val, (i 0).isLt⟩ k))

end Cert.Target

end
-- ==== Proof.KernelScore.lean ====
/-
  From the recurrence's last state to the score.

  Fix a row r and a class c. If the tiles' logits are the row's 12288 real logits taken 128 at a time, and the tiles' weights
  the class's indicator taken the same way, then after the 96th tile the accumulator over the normaliser is the score at
  (r, c): the recurrence's closed form over the reals, with the 96 x 128 tile positions re-indexed as the 12288 centroids.
-/
import proofs.«419428_j32246614458630_2_alg».proof.Proof.Target
import proofs.«419428_j32246614458630_2_alg».proof.Proof.OnlineSoftmax

noncomputable section

namespace Cert.KernelScore

open Idealize.ShloMosaic Idealize.ShloMosaic.ValueIdx Cert.OnlineSoftmax Cert.Target

/-- The state after tile `n` depends only on the tiles up to `n`. -/
theorem run_congr (S O S' O' : ℕ → Fin 128 → EReal) (n : ℕ)
    (h : ∀ j, j ≤ n → S j = S' j ∧ O j = O' j) : run S O n = run S' O' n := by
  induction n with
  | zero =>
    rw [run_zero, run_zero, (h 0 le_rfl).1, (h 0 le_rfl).2]
  | succ n ih =>
    rw [run_succ, run_succ, ih (fun j hj => h j (Nat.le_succ_of_le hj)), (h (n + 1) le_rfl).1,
      (h (n + 1) le_rfl).2]

/-- The row's logits as a total function of a natural index: 0 past the 12288 centroids. -/
private def lg (x : (⟨2, ![16384, 1024]⟩ : Shape).Idx → ℝ) (cn : (⟨2, ![12288, 1024]⟩ : Shape).Idx → ℝ)
    (r : Fin 16384) (k : ℕ) : ℝ :=
  if h : k < 12288 then logit x cn r ⟨k, h⟩ else 0

/-- The class's indicator as a total function of a natural index: 0 past the 12288 centroids. -/
private def wt (lab : (⟨1, ![12288]⟩ : Shape).Idx → BitVec 32) (c : Fin 4096) (k : ℕ) : ℝ :=
  if h : k < 12288 then hot lab ⟨k, h⟩ c else 0

private theorem lg_fin (x : (⟨2, ![16384, 1024]⟩ : Shape).Idx → ℝ) (cn : (⟨2, ![12288, 1024]⟩ : Shape).Idx → ℝ)
    (r : Fin 16384) (k : Fin 12288) : lg x cn r k.val = logit x cn r k := by
  unfold lg
  rw [dif_pos k.isLt]

private theorem wt_fin (lab : (⟨1, ![12288]⟩ : Shape).Idx → BitVec 32) (c : Fin 4096) (k : Fin 12288) :
    wt lab c k.val = hot lab k c := by
  unfold wt
  rw [dif_pos k.isLt]

/-- The score at (r, c), with the coordinates of the index read off. -/
private theorem score_ix2 (x : (⟨2, ![16384, 1024]⟩ : Shape).Idx → ℝ) (cn : (⟨2, ![12288, 1024]⟩ : Shape).Idx → ℝ)
    (lab : (⟨1, ![12288]⟩ : Shape).Idx → BitVec 32) (r : Fin 16384) (c : Fin 4096) :
    score x cn lab (ix2 r c)
      = (∑ k : Fin 12288, Real.exp (logit x cn r k) * hot lab k c) / (∑ k : Fin 12288, Real.exp (logit x cn r k)) :=
  rfl

/-- After the 96 tiles of a row of real logits, accumulator over normaliser is the score. -/
theorem div_run_eq_score (x : (⟨2, ![16384, 1024]⟩ : Shape).Idx → ℝ) (cn : (⟨2, ![12288, 1024]⟩ : Shape).Idx → ℝ)
    (lab : (⟨1, ![12288]⟩ : Shape).Idx → BitVec 32) (r : Fin 16384) (c : Fin 4096) (S O : ℕ → Fin 128 → EReal)
    (hS : ∀ (j : ℕ) (q : Fin 128) (h : 128 * j + q.val < 12288), S j q = ((logit x cn r ⟨128 * j + q.val, h⟩ : ℝ) : EReal))
    (hO : ∀ (j : ℕ) (q : Fin 128) (h : 128 * j + q.val < 12288), O j q = ((hot lab ⟨128 * j + q.val, h⟩ c : ℝ) : EReal)) :
    Ideal.div (run S O 95).2.2 (run S O 95).2.1 = ((score x cn lab (ix2 r c) : ℝ) : EReal) := by
  have h1 : run S O 95
      = run (fun j q => ((lg x cn r (128 * j + q.val) : ℝ) : EReal))
          (fun j q => ((wt lab c (128 * j + q.val) : ℝ) : EReal)) 95 := by
    refine run_congr _ _ _ _ 95 (fun j hj => ⟨?_, ?_⟩)
    · funext q
      have hb : 128 * j + q.val < 12288 := by have := q.isLt; omega
      rw [hS j q hb]
      exact congrArg _ (lg_fin x cn r ⟨128 * j + q.val, hb⟩).symm
    · funext q
      have hb : 128 * j + q.val < 12288 := by have := q.isLt; omega
      rw [hO j q hb]
      exact congrArg _ (wt_fin lab c ⟨128 * j + q.val, hb⟩).symm
  have hN : (∑ j ∈ Finset.range (95 + 1), ∑ q : Fin 128,
        Real.exp (lg x cn r (128 * j + q.val)) * wt lab c (128 * j + q.val))
      = ∑ k : Fin 12288, Real.exp (logit x cn r k) * hot lab k c := by
    refine (sum_tiles (fun k => Real.exp (lg x cn r k) * wt lab c k)).trans ?_
    refine Finset.sum_congr rfl (fun k _ => ?_)
    rw [lg_fin, wt_fin]
  have hD : (∑ j ∈ Finset.range (95 + 1), ∑ q : Fin 128, Real.exp (lg x cn r (128 * j + q.val)))
      = ∑ k : Fin 12288, Real.exp (logit x cn r k) := by
    refine (sum_tiles (fun k => Real.exp (lg x cn r k))).trans ?_
    refine Finset.sum_congr rfl (fun k _ => ?_)
    rw [lg_fin]
  rw [h1]
  refine (run_div_real (fun j q => lg x cn r (128 * j + q.val)) (fun j q => wt lab c (128 * j + q.val)) 95).trans ?_
  beta_reduce
  rw [score_ix2, hN, hD]

end Cert.KernelScore

end
-- ==== Proof.OneHot.lean ====
/-
  The class table the kernel's program builds before the launch.

  The table has a row per centroid and a column per class; entry (k, c) is 1 when the centroid's label equals c as 32-bit
  words and 0 otherwise, converted to a float. For a class c below 4096 a label equals c as a word exactly when it is c read
  as a signed integer, so the entry is the indicator `hot`.
-/
import proofs.«419428_j32246614458630_2_alg».proof.Proof.Gen.KernelIdeal.Frame
import proofs.«419428_j32246614458630_2_alg».proof.Proof.Target
import Idealize.ShloMosaic.Lib.ValueIdx
import Idealize.ShloMosaic.Lib.Pipeline.Value
import Idealize.ShloMosaic.Lib.StableHlo.Run

noncomputable section

namespace Cert.KernelIdeal.OneHot

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- A number below 4096, as a 32-bit word, reads back as itself signed: it is below 2^31. -/
private theorem toInt_ofNat_small (n : Nat) (hn : n < 4096) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- A 32-bit word is the word of a number below 4096 exactly when its signed reading is that number: the signed reading
    is injective. -/
private theorem word_eq_iff (a : BitVec 32) (n : Nat) (hn : n < 4096) :
    a = BitVec.ofNat 32 n ↔ a.toInt = (n : ℤ) := by
  rw [← toInt_ofNat_small n hn]
  exact BitVec.toInt_inj.symm

/-- The table's operations over any label array, read at (k, c): the labels broadcast along the columns give label k, the
    column numbers broadcast along the rows give the word of c, their comparison as a 0/1 word converted to a float is the
    indicator. -/
private theorem table_apply (lab : S12288.Idx → BitVec 32) (k : Fin 12288) (cl : Fin 4096) :
    (uitofp (F := Ideal) .bf16 (cmpi .eq
        (broadcastInDim S12288x4096 ![0, 1] Facts₀.bcast_S12288x1_S12288x4096_0_1
          (broadcastInDim S12288x1 ![0] Facts₀.bcast_S12288_S12288x1_0 lab))
        (broadcastInDim S12288x4096 ![0, 1] Facts₀.bcast_S1x4096_S12288x4096_0_1 (iotaInDim S1x4096 32 1)))
      : S12288x4096.Idx → EReal) (ix2 k cl)
      = ((Cert.Target.hot lab k cl : ℝ) : EReal) := by
  have h1 : broadcastInDim S12288x4096 ![0, 1] Facts₀.bcast_S12288x1_S12288x4096_0_1
      (broadcastInDim S12288x1 ![0] Facts₀.bcast_S12288_S12288x1_0 lab) (ix2 k cl) = lab (ix1 k) := by
    rw [broadcastInDim_apply ![0, 1] Facts₀.bcast_S12288x1_S12288x4096_0_1 _ (ix2 k cl) (ix2 k (0 : Fin 1))
      (fun a => match a with
        | ⟨0, _⟩ => by show k.val = if (12288 : Nat) = 1 then 0 else k.val; rw [if_neg (by decide)]
        | ⟨1, _⟩ => by show 0 = if (1 : Nat) = 1 then 0 else cl.val; rw [if_pos rfl])]
    exact broadcastInDim_apply ![0] Facts₀.bcast_S12288_S12288x1_0 lab (ix2 k (0 : Fin 1)) (ix1 k)
      (fun a => match a with
        | ⟨0, _⟩ => by show k.val = if (12288 : Nat) = 1 then 0 else k.val; rw [if_neg (by decide)])
  have h2 : broadcastInDim S12288x4096 ![0, 1] Facts₀.bcast_S1x4096_S12288x4096_0_1 (iotaInDim S1x4096 32 1) (ix2 k cl)
      = BitVec.ofNat 32 cl.val := by
    rw [broadcastInDim_apply ![0, 1] Facts₀.bcast_S1x4096_S12288x4096_0_1 _ (ix2 k cl) (ix2 (0 : Fin 1) cl)
      (fun a => match a with
        | ⟨0, _⟩ => by show 0 = if (1 : Nat) = 1 then 0 else k.val; rw [if_pos rfl]
        | ⟨1, _⟩ => by show cl.val = if (4096 : Nat) = 1 then 0 else cl.val; rw [if_neg (by decide)])]
    rfl
  show (((IntOp.cmpi .eq
      (broadcastInDim S12288x4096 ![0, 1] Facts₀.bcast_S12288x1_S12288x4096_0_1
        (broadcastInDim S12288x1 ![0] Facts₀.bcast_S12288_S12288x1_0 lab) (ix2 k cl))
      (broadcastInDim S12288x4096 ![0, 1] Facts₀.bcast_S1x4096_S12288x4096_0_1 (iotaInDim S1x4096 32 1) (ix2 k cl))).toNat : ℝ) : EReal)
    = _
  rw [h1, h2]
  unfold Cert.Target.hot IntOp.cmpi
  by_cases hw : lab (ix1 k) = BitVec.ofNat 32 cl.val
  · rw [if_pos ((word_eq_iff _ _ cl.isLt).1 hw)]
    simp [hw]
  · rw [if_neg (fun h => hw ((word_eq_iff _ _ cl.isLt).2 h))]
    simp [hw]

/-- The table as the region finds it, at (k, c): the indicator that centroid k is labelled c. -/
theorem onehot_apply (c : Dev nD) (k : Fin 12288) (cl : Fin 4096) :
    ((V m c main_v0 : S12288x4096.Idx → EReal) (ix2 k cl))
      = ((Cert.Target.hot (m ((c : Thread nD τ).loc main_arg2)) k cl : ℝ) : EReal) := by
  have e : (V m c main_v0 : S12288x4096.Idx → EReal)
      = uitofp (F := Ideal) .bf16 (cmpi .eq
          (broadcastInDim S12288x4096 ![0, 1] Facts₀.bcast_S12288x1_S12288x4096_0_1
            (broadcastInDim S12288x1 ![0] Facts₀.bcast_S12288_S12288x1_0
              (m ((c : Thread nD τ).loc main_arg2) : S12288.Idx → BitVec 32)))
          (broadcastInDim S12288x4096 ![0, 1] Facts₀.bcast_S1x4096_S12288x4096_0_1 (iotaInDim S1x4096 32 1))) := by
    dsimp only [Gen.V, Gen.hostOps0]; after_results; rfl
  rw [e]
  exact table_apply (m ((c : Thread nD τ).loc main_arg2)) k cl

end Cert.KernelIdeal.OneHot

end
-- ==== Proof.KernelReal.lean ====
/-
  The kernel's result over real inputs is the score.

  When X and the centroids are arrays of real numbers, a row's logits against a centroid tile are the coercions of the real
  logits, the class table's entries the coercions of the indicator, and the finished recurrence's accumulator over normaliser
  is the score.
-/
import proofs.«419428_j32246614458630_2_alg».proof.Proof.Blocks
import proofs.«419428_j32246614458630_2_alg».proof.Proof.KernelScore
import proofs.«419428_j32246614458630_2_alg».proof.Proof.OneHot

set_option maxRecDepth 16384

noncomputable section

namespace Cert.KernelIdeal.KReal

open Cert.KernelIdeal Cert.KernelIdeal.Gen Idealize.ShloMosaic Idealize.ShloMosaic.TcCoe Idealize.ShloMosaic.ValueIdx Idealize.SL.Sem
open Cert.KernelIdeal.Blk

variable (m : (ℓ : Loc nD τ sig) → Buf (Elt Ideal) ℓ)

/-- The coercion of the reals into the extended reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over a real X, the total accessor inside the array is the coercion of the real entry. -/
private theorem Xn_real (c : Dev nD) (x : S16384x1024.Idx → ℝ)
    (hx : (m ((c : Thread nD τ).loc main_arg0) : S16384x1024.Idx → EReal) = fun i => ((x i : ℝ) : EReal))
    (r : Fin 16384) (d : Fin 1024) : Xn m c r.val d.val = ((x (ix2 r d) : ℝ) : EReal) := by
  unfold Xn
  rw [dif_pos ⟨r.isLt, d.isLt⟩]
  exact congrFun ((V_main_arg0 m c).trans hx) (ix2 r d)

/-- Over real centroids, the total accessor inside the array is the coercion of the real entry. -/
private theorem Cn_real (c : Dev nD) (cn : S12288x1024.Idx → ℝ)
    (hc : (m ((c : Thread nD τ).loc main_arg1) : S12288x1024.Idx → EReal) = fun i => ((cn i : ℝ) : EReal))
    (k : ℕ) (hk : k < 12288) (d : Fin 1024) : Cn m c k d.val = ((cn (ix2 ⟨k, hk⟩ d) : ℝ) : EReal) := by
  unfold Cn
  rw [dif_pos ⟨hk, d.isLt⟩]
  exact congrFun ((V_main_arg1 m c).trans hc) (ix2 ⟨k, hk⟩ d)

/-- A row's logits against a centroid tile are the coercions of the real logits. -/
private theorem rowLogits_real (c : Dev nD) (x : S16384x1024.Idx → ℝ) (cn : S12288x1024.Idx → ℝ)
    (hx : (m ((c : Thread nD τ).loc main_arg0) : S16384x1024.Idx → EReal) = fun i => ((x i : ℝ) : EReal))
    (hc : (m ((c : Thread nD τ).loc main_arg1) : S12288x1024.Idx → EReal) = fun i => ((cn i : ℝ) : EReal))
    (r : Fin 16384) (j : ℕ) (q : Fin 128) (h : 128 * j + q.val < 12288) :
    rowLogits m c r.val j q = ((Cert.Target.logit x cn r ⟨128 * j + q.val, h⟩ : ℝ) : EReal) := by
  unfold rowLogits Cert.Target.logit
  rw [coe_sum]
  refine Finset.sum_congr rfl (fun d _ => ?_)
  rw [Xn_real m c x hx r d, Cn_real m c cn hc (128 * j + q.val) h d, EReal.coe_mul]

/-- A class's weights of a centroid tile are the coercions of the indicator. -/
private theorem colWeights_real (c : Dev nD) (cl : Fin 4096) (j : ℕ) (q : Fin 128) (h : 128 * j + q.val < 12288) :
    colWeights m c cl.val j q
      = ((Cert.Target.hot (m ((c : Thread nD τ).loc main_arg2)) ⟨128 * j + q.val, h⟩ cl : ℝ) : EReal) := by
  unfold colWeights On
  rw [dif_pos ⟨h, cl.isLt⟩]
  exact Cert.KernelIdeal.OneHot.onehot_apply m c ⟨128 * j + q.val, h⟩ cl

/-- Over real inputs the kernel's result function is the score. -/
theorem G_eq_score (c : Dev nD) (x : S16384x1024.Idx → ℝ) (cn : S12288x1024.Idx → ℝ)
    (hx : (m ((c : Thread nD τ).loc main_arg0) : S16384x1024.Idx → EReal) = fun i => ((x i : ℝ) : EReal))
    (hc : (m ((c : Thread nD τ).loc main_arg1) : S12288x1024.Idx → EReal) = fun i => ((cn i : ℝ) : EReal)) :
    G m c = fun i => ((Cert.Target.score x cn (m ((c : Thread nD τ).loc main_arg2)) i : ℝ) : EReal) := by
  funext i
  obtain ⟨r, cl, rfl⟩ : ∃ (r : Fin 16384) (cl : Fin 4096), i = ix2 r cl := ⟨i 0, i 1, eq_ix2 i⟩
  show Ideal.div (Cert.OnlineSoftmax.run (rowLogits m c r.val) (colWeights m c cl.val) 95).2.2
      (Cert.OnlineSoftmax.run (rowLogits m c r.val) (colWeights m c cl.val) 95).2.1 = _
  exact Cert.KernelScore.div_run_eq_score x cn _ r cl _ _
    (fun j q h => rowLogits_real m c x cn hx hc r j q h) (fun j q h => colWeights_real m c cl j q h)

end Cert.KernelIdeal.KReal

end
-- ==== Proof.RefValue.lean ====
/-
  The reference's result, index by index, over real inputs.

  The reference forms all logits X · Cᵀ, divides them by 1, subtracts each row's maximum, exponentiates, divides by the row
  sum, and adds each centroid's probability into the class its label names (a label outside the classes lands nowhere).
  For real inputs the row maximum is a real number, so it drops out of the quotient, and entry (r, c) is the total softmax
  weight of the centroids labelled c: the score.
-/
import proofs.«419428_j32246614458630_2_alg».proof.Proof.Gen.ReferenceIdeal.Read
import proofs.«419428_j32246614458630_2_alg».proof.Proof.Target
import proofs.«419428_j32246614458630_2_alg».proof.Proof.OnlineSoftmax
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

/-! ## The scatter's landing index -/

/-- An update lands on operand index i exactly when, on every axis, the start plus the window coordinate is i's
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · constructor
    · intro e a
      have e' := congrFun (Option.some.inj e) a
      rw [← e']
      exact (Int.toNat_of_nonneg (h a).1).symm
    · intro e
      refine congrArg some (funext fun a => Fin.ext ?_)
      show (d.start j idx a + (d.window j a : ℤ)).toNat = (i a).val
      rw [e a]
      exact Int.toNat_natCast _
  · constructor
    · intro e
      exact absurd e (by simp)
    · intro e
      refine absurd (fun a => ?_) h
      rw [e a]
      exact ⟨Int.natCast_nonneg _, by exact_mod_cast (i a).isLt⟩

/-- On the class axis the window starts at the centroid's label, read signed. -/
theorem start_class (k : Fin 12288) (r' : Fin 16384) (idx : IVec S12288x1 32) :
    scatter_S4096x16384_S12288x1_S12288x16384_1_0_0_1.start (ix2 k r') idx 0 = (idx (ix2 k 0)).toInt := by
  unfold ScatterDims.start
  rw [dif_pos (show (0 : Fin S4096x16384.rank) ∈ scatter_S4096x16384_S12288x1_S12288x16384_1_0_0_1.scatterDimsToOperandDims by decide)]
  have hsi : scatter_S4096x16384_S12288x1_S12288x16384_1_0_0_1.siIdx (ix2 k r')
      ⟨List.idxOf (0 : Fin S4096x16384.rank) scatter_S4096x16384_S12288x1_S12288x16384_1_0_0_1.scatterDimsToOperandDims,
        List.idxOf_lt_length_iff.2 (by decide)⟩ = ix2 k 0 := by
    funext b; refine Fin.ext ?_
    match b with
    | ⟨0, _⟩ => rfl
    | ⟨1, _⟩ => rfl
  rw [hsi]

/-- On the row axis the window starts at 0. -/
theorem start_row (k : Fin 12288) (r' : Fin 16384) (idx : IVec S12288x1 32) :
    scatter_S4096x16384_S12288x1_S12288x16384_1_0_0_1.start (ix2 k r') idx 1 = 0 := by
  unfold ScatterDims.start
  rw [dif_neg (show ¬(1 : Fin S4096x16384.rank) ∈ scatter_S4096x16384_S12288x1_S12288x16384_1_0_0_1.scatterDimsToOperandDims by decide)]

/-- The class axis is inserted: its window coordinate is 0. -/
theorem window_class (k : Fin 12288) (r' : Fin 16384) :
    scatter_S4096x16384_S12288x1_S12288x16384_1_0_0_1.window (ix2 k r') 0 = 0 := by
  unfold ScatterDims.window
  rw [dif_neg (show ¬(0 : Fin S4096x16384.rank) ∈ scatter_S4096x16384_S12288x1_S12288x16384_1_0_0_1.sKept by decide)]

/-- The row axis carries the update's row coordinate. -/
theorem window_row (k : Fin 12288) (r' : Fin 16384) :
    scatter_S4096x16384_S12288x1_S12288x16384_1_0_0_1.window (ix2 k r') 1 = r'.val := by
  unfold ScatterDims.window
  rw [dif_pos (show (1 : Fin S4096x16384.rank) ∈ scatter_S4096x16384_S12288x1_S12288x16384_1_0_0_1.sKept by decide)]
  rfl

/-- Update (k, r') lands on entry (c, r) exactly when centroid k's label, read signed, is c, and r' = r. -/
theorem lands_iff (k : Fin 12288) (r' r : Fin 16384) (c : Fin 4096) (idx : IVec S12288x1 32) :
    scatter_S4096x16384_S12288x1_S12288x16384_1_0_0_1.resultIdx? (ix2 k r') idx = some (ix2 c r)
      ↔ (idx (ix2 k 0)).toInt = (c.val : ℤ) ∧ r' = r := by
  rw [resultIdx?_eq_some_iff, Fin.forall_fin_two, start_class, start_row, window_class, window_row]
  constructor
  · rintro ⟨h0, h1⟩
    refine ⟨?_, Fin.ext ?_⟩
    · simpa using h0
    · have h1' : ((r'.val : ℕ) : ℤ) = ((r.val : ℕ) : ℤ) := by simpa using h1
      exact_mod_cast h1'
  · rintro ⟨h0, rfl⟩
    refine ⟨?_, ?_⟩
    · simpa using h0
    · simp

/-! ## The constants -/

/-- The pattern 0x3F800000 is 1. -/
theorem one_bits : Ideal.ofBits .f32 0x3F800000#32 = 1 := IdealRules.sign_bit.ideal_onePat .f32

/-- The pattern 0xFF800000 is minus infinity. -/
theorem neg_inf_bits : Ideal.ofBits .f32 0xFF800000#32 = ⊥ := by
  simp [Ideal.ofBits, Ideal.ieee]

/-! ## Sums of reals in the extended reals -/

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, from minus infinity, over a nonempty finite family of reals is a real. -/
theorem fold_max_real {ι : Type} [DecidableEq ι] (S : Finset ι) (hS : S.Nonempty) (f : ι → EReal)
    (hf : ∀ q, ∃ t : ℝ, f q = (t : EReal)) : ∃ τ : ℝ, S.fold max ⊥ f = (τ : EReal) := by
  induction hS using Finset.Nonempty.cons_induction with
  | singleton a =>
    obtain ⟨t, ht⟩ := hf a
    exact ⟨t, by rw [Finset.fold_singleton, ht, max_bot_right]⟩
  | cons a s ha hs ih =>
    obtain ⟨τ, hτ⟩ := ih
    obtain ⟨t, ht⟩ := hf a
    refine ⟨max t τ, ?_⟩
    rw [Finset.fold_cons, hτ, ht]
    exact (EReal.coe_strictMono.monotone.map_max).symm

/-! ## The logits -/

/-- With real inputs, entry (r, k) of the product X · Cᵀ is the real logit. -/
theorem v1_real (x : S16384x1024.Idx → ℝ) (cn : S12288x1024.Idx → ℝ) (r : Fin 16384) (k : Fin 12288) :
    val_main_v1 (F := Ideal) (fun i => ((x i : ℝ) : EReal)) (fun i => ((cn i : ℝ) : EReal)) (ix2 r k)
      = ((Cert.Target.logit x cn r k : ℝ) : EReal) := by
  rw [val_main_v1_apply]
  unfold Cert.Target.logit
  rw [coe_sum]
  refine Finset.sum_congr rfl fun d _ => ?_
  rw [val_main_v0_apply, EReal.coe_mul]
  have e1 : lidx_main_v1 (ix2 r k) d = ix2 r d := by
    funext a; match a with | ⟨0, _⟩ => rfl | ⟨1, _⟩ => rfl
  have e2 : idx_main_v0 (ridx_main_v1 (ix2 r k) d) = ix2 k d := by
    funext a; match a with | ⟨0, _⟩ => rfl | ⟨1, _⟩ => rfl
  rw [e1, e2]

/-! ## The stages, one index at a time -/

/-- The logits divided by the constant 1. -/
theorem v3_real (x : S16384x1024.Idx → ℝ) (cn : S12288x1024.Idx → ℝ) (r : Fin 16384) (k : Fin 12288) :
    val_main_v3 (F := Ideal) (fun i => ((x i : ℝ) : EReal)) (fun i => ((cn i : ℝ) : EReal)) (ix2 r k)
      = Ideal.div ((Cert.Target.logit x cn r k : ℝ) : EReal) 1 := by
  rw [val_main_v3_apply, v1_real, val_main_v2_apply, val_main_cst_apply, Ideal.hostDivf_def, Ideal.ofBits_def, one_bits]

/-- Division of a real by 1 is that real. -/
theorem div_one_real (t : ℝ) : Ideal.div (t : EReal) 1 = (t : EReal) := by
  rw [← EReal.coe_one, Ideal.div_coe one_ne_zero, div_one, EReal.coe_one, mul_one]

/-- The reduced index r with column k put back is (r, k). -/
theorem lift_row (h : S16384x12288.Reduces [1] S16384) (r : Fin 16384) (k : Fin (S16384x12288.size 1)) :
    h.lift (ix1 r) k = ix2 r (⟨k.val, k.isLt⟩ : Fin 12288) := by
  funext c; apply Fin.ext
  fin_cases c <;> rfl

/-- With real inputs every row's maximum is a real number. -/
theorem v6_real (x : S16384x1024.Idx → ℝ) (cn : S12288x1024.Idx → ℝ) (r : Fin 16384) :
    ∃ μ : ℝ, val_main_v6 (F := Ideal) (fun i => ((x i : ℝ) : EReal)) (fun i => ((cn i : ℝ) : EReal)) (ix1 r)
      = (μ : EReal) := by
  have h : S16384x12288.Reduces [1] S16384 := by decide
  rw [val_main_v6_apply, val_main_v5_apply, val_main_cst_1_apply, Ideal.maximumf_def, Ideal.ofBits_def, neg_inf_bits,
    max_bot_left]
  unfold val_main_v4
  rw [Host.reduce_eq_fold_single FloatOps.maximumf _ _ reducesTo_S16384x12288_S16384_d1 h h_S_, val_main_cst_0_apply,
    Ideal.ofBits_def, neg_inf_bits]
  refine fold_max_real (Finset.univ : Finset (Fin (S16384x12288.size 1))) ⟨⟨0, by decide⟩, Finset.mem_univ _⟩ _ fun k => ?_
  refine ⟨Cert.Target.logit x cn r ⟨k.val, k.isLt⟩, ?_⟩
  show val_main_v3 (F := Ideal) _ _ (h.lift (ix1 r) k) = _
  rw [lift_row, v3_real, div_one_real]

/-- The shifted exponentials: entry (r, k) is exp (logit / 1 - mu), mu the row's maximum. -/
theorem v10_at (x : S16384x1024.Idx → ℝ) (cn : S12288x1024.Idx → ℝ) (r : Fin 16384) (k : Fin 12288) (μ : ℝ)
    (hμ : val_main_v6 (F := Ideal) (fun i => ((x i : ℝ) : EReal)) (fun i => ((cn i : ℝ) : EReal)) (ix1 r) = (μ : EReal)) :
    val_main_v10 (F := Ideal) (fun i => ((x i : ℝ) : EReal)) (fun i => ((cn i : ℝ) : EReal)) (ix2 r k)
      = Ideal.exp (Ideal.div ((Cert.Target.logit x cn r k : ℝ) : EReal) 1 - (μ : EReal)) := by
  rw [val_main_v10_apply, val_main_v9_apply, v3_real, val_main_v8_apply, val_main_v7_apply, Ideal.hostUnary_exp_def,
    Ideal.subf_def]
  have e : idx_main_v7 (idx_main_v8 (ix2 r k)) = ix1 r := by
    funext a; match a with | ⟨0, _⟩ => rfl
  rw [e, hμ]

/-- The row sums of the shifted exponentials, from 0. -/
theorem v11_at (x : S16384x1024.Idx → ℝ) (cn : S12288x1024.Idx → ℝ) (r : Fin 16384) (μ : ℝ)
    (hμ : val_main_v6 (F := Ideal) (fun i => ((x i : ℝ) : EReal)) (fun i => ((cn i : ℝ) : EReal)) (ix1 r) = (μ : EReal)) :
    val_main_v11 (F := Ideal) (fun i => ((x i : ℝ) : EReal)) (fun i => ((cn i : ℝ) : EReal)) (ix1 r)
      = (0 : EReal) + ∑ k : Fin 12288, Ideal.exp (Ideal.div ((Cert.Target.logit x cn r k : ℝ) : EReal) 1 - (μ : EReal)) := by
  rw [val_main_v11_apply, val_main_cst_2_apply, Ideal.ofBits_def, Ideal.ofBits_zero_f32]
  refine congrArg ((0 : EReal) + ·) (Finset.sum_congr rfl fun k _ => ?_)
  have e : idx_main_v11 (ix1 r) k = ix2 r k := by
    funext a; match a with | ⟨0, _⟩ => rfl | ⟨1, _⟩ => rfl
  rw [e, v10_at x cn r k μ hμ]

/-- The probabilities, transposed: entry (k, r) is the shifted exponential over the row sum. -/
theorem v15_at (x : S16384x1024.Idx → ℝ) (cn : S12288x1024.Idx → ℝ) (r : Fin 16384) (k : Fin 12288) (μ : ℝ)
    (hμ : val_main_v6 (F := Ideal) (fun i => ((x i : ℝ) : EReal)) (fun i => ((cn i : ℝ) : EReal)) (ix1 r) = (μ : EReal)) :
    val_main_v15 (F := Ideal) (fun i => ((x i : ℝ) : EReal)) (fun i => ((cn i : ℝ) : EReal)) (ix2 k r)
      = Ideal.div (Ideal.exp (Ideal.div ((Cert.Target.logit x cn r k : ℝ) : EReal) 1 - (μ : EReal)))
          ((0 : EReal) + ∑ k' : Fin 12288, Ideal.exp (Ideal.div ((Cert.Target.logit x cn r k' : ℝ) : EReal) 1 - (μ : EReal))) := by
  rw [val_main_v15_apply]
  have e0 : idx_main_v15 (ix2 k r) = ix2 r k := by
    funext a; match a with | ⟨0, _⟩ => rfl | ⟨1, _⟩ => rfl
  rw [e0, val_main_v14_apply, v10_at x cn r k μ hμ, val_main_v13_apply, val_main_v12_apply, Ideal.hostDivf_def]
  have e : idx_main_v12 (idx_main_v13 (ix2 r k)) = ix1 r := by
    funext a; match a with | ⟨0, _⟩ => rfl
  rw [e, v11_at x cn r μ hμ]

/-! ## The scatter at an index -/

/-- The scatter adds into entry (c, r) the updates (k, r) of the centroids k whose label, read signed, is c. -/
theorem scatter_at (z : S4096x16384.Idx → EReal) (idx : IVec S12288x1 32) (upd : S12288x16384.Idx → EReal)
    (c : Fin 4096) (r : Fin 16384) :
    Ideal.hostScatterAdd scatter_S4096x16384_S12288x1_S12288x16384_1_0_0_1 z idx upd (ix2 c r)
      = z (ix2 c r) + ∑ k ∈ Finset.univ.filter (fun k : Fin 12288 => (idx (ix2 k 0)).toInt = (c.val : ℤ)), upd (ix2 k r) := by
  unfold Ideal.hostScatterAdd
  refine congrArg (z (ix2 c r) + ·) ?_
  rw [Finset.sum_filter, sum_idx2, Finset.sum_filter]
  refine Finset.sum_congr rfl fun k _ => ?_
  simp only [lands_iff]
  by_cases hk : (idx (ix2 k 0)).toInt = (c.val : ℤ)
  · simp only [hk, true_and, if_true]
    rw [Finset.sum_ite_eq']
    simp
  · simp only [hk, false_and, if_false]
    exact Finset.sum_const_zero

/-! ## The result -/

/-- The exp-weights of the centroids labelled c, summed, are the sum over all centroids of exp-weight times hot. -/
theorem sum_hits (x2 : IVec S12288 32) (σ : Fin 12288 → ℝ) (c : Fin 4096) :
    (∑ k ∈ Finset.univ.filter (fun k : Fin 12288 => (x2 (ix1 k)).toInt = (c.val : ℤ)), Real.exp (σ k))
      = ∑ k : Fin 12288, Real.exp (σ k) * Cert.Target.hot x2 k c := by
  rw [Finset.sum_filter]
  refine Finset.sum_congr rfl fun k _ => ?_
  unfold Cert.Target.hot
  rw [mul_ite, mul_one, mul_zero]

/-- Entry (r, c) of the reference's result is the score. -/
theorem val_at (x2 : IVec S12288 32) (x : S16384x1024.Idx → ℝ) (cn : S12288x1024.Idx → ℝ) (r : Fin 16384) (c : Fin 4096) :
    Read.val_main_v19 (F := Ideal) (fun i => ((x i : ℝ) : EReal)) (fun i => ((cn i : ℝ) : EReal)) x2 (ix2 r c)
      = ((Cert.Target.score x cn x2 (ix2 r c) : ℝ) : EReal) := by
  obtain ⟨μ, hμ⟩ := v6_real x cn r
  rw [val_main_v19_apply]
  have e0 : idx_main_v19 (ix2 r c) = ix2 c r := by
    funext a; match a with | ⟨0, _⟩ => rfl | ⟨1, _⟩ => rfl
  rw [e0]
  unfold val_main_v18
  simp only [Host.scatterAdd, Ideal.hostScatterAdd_def]
  rw [scatter_at, val_main_v16_apply, val_main_cst_3_apply, Ideal.ofBits_def, Ideal.ofBits_zero_f32]
  have eH : (Finset.univ.filter (fun k : Fin 12288 => (val_main_v17 (F := Ideal) x2 (ix2 k 0)).toInt = (c.val : ℤ)))
      = Finset.univ.filter (fun k : Fin 12288 => (x2 (ix1 k)).toInt = (c.val : ℤ)) := by
    refine Finset.filter_congr fun k _ => ?_
    rw [val_main_v17_apply]
    have e : idx_main_v17 (ix2 k 0) = ix1 k := by
      funext a; match a with | ⟨0, _⟩ => rfl
    rw [e]
  rw [eH]
  have eS : ∀ k : Fin 12288, val_main_v15 (F := Ideal) (fun i => ((x i : ℝ) : EReal)) (fun i => ((cn i : ℝ) : EReal)) (ix2 k r)
      = Ideal.div (Ideal.exp (Ideal.div ((Cert.Target.logit x cn r k : ℝ) : EReal) 1 - (μ : EReal)))
          ((0 : EReal) + ∑ k' : Fin 12288, Ideal.exp (Ideal.div ((Cert.Target.logit x cn r k' : ℝ) : EReal) 1 - (μ : EReal))) :=
    fun k => v15_at x cn r k μ hμ
  simp only [eS]
  rw [Cert.OnlineSoftmax.softmax_hits_real (fun k => Cert.Target.logit x cn r k) μ, sum_hits]
  rfl

/-- The reference's result array is the score of the real inputs. -/
theorem val_eq (x0 : FVec Ideal S16384x1024 .f32) (x1 : FVec Ideal S12288x1024 .f32) (x2 : IVec S12288 32)
    (x : S16384x1024.Idx → ℝ) (cn : S12288x1024.Idx → ℝ)
    (hx : x0 = fun i => ((x i : ℝ) : EReal)) (hc : x1 = fun i => ((cn i : ℝ) : EReal)) :
    Read.val_main_v19 (F := Ideal) x0 x1 x2 = fun i => ((Cert.Target.score x cn x2 i : ℝ) : EReal) := by
  subst hx; subst hc
  funext i
  obtain ⟨r, c, rfl⟩ : ∃ (r : Fin 16384) (c : Fin 4096), i = ix2 r c := ⟨i 0, i 1, eq_ix2 i⟩
  exact val_at x2 x cn r c

end Cert.ReferenceIdeal.RefValue

end
-- ==== Proof.Finite.lean ====
/-
  From the precondition to real inputs.

  The precondition says every entry of X and of the centroids has absolute value below plus infinity. An extended real whose
  absolute value is below plus infinity is neither infinity, so it is a real number: both arrays are coercions of real arrays.
-/
import proofs.«419428_j32246614458630_2_alg».proof.Pre_finite_inputs
import Idealize.ShloMosaic.PureOps.Ideal
import Idealize.ShloMosaic.Lib.ReduceAll
import Idealize.ShloMosaic.Lib.ValueIdx

noncomputable section

namespace Cert.Finite

open Idealize.ShloMosaic

/-- The 32-bit pattern with all exponent bits set and no fraction bit denotes plus infinity. -/
private theorem inf_bits : Ideal.ofBits .f32 0x7F800000#32 = (⊤ : EReal) := by
  simp [Ideal.ofBits, Ideal.ieee]

/-- An extended real whose absolute value max x (-x) compares below plus infinity is a real number: at either infinity
    the absolute value is plus infinity, which is not below itself. -/
private theorem real_of_abs_lt (x : EReal)
    (hx : Ideal.cmp .olt (max x (-x)) (Ideal.ofBits .f32 0x7F800000#32) = 1#1) : ∃ r : ℝ, x = ((r : ℝ) : EReal) := by
  rw [inf_bits] at hx
  induction x using EReal.rec with
  | bot => simp [Ideal.cmp] at hx
  | coe r => exact ⟨r, rfl⟩
  | top => simp [Ideal.cmp] at hx

/-- Under the precondition both float inputs are arrays of real numbers. -/
theorem real_of_pre [Cert.Pre_finite_inputs.Facts]
    (a0 : FVec Ideal Cert.Pre_finite_inputs.S16384x1024 .f32) (a1 : FVec Ideal Cert.Pre_finite_inputs.S12288x1024 .f32)
    (a2 : IVec Cert.Pre_finite_inputs.S12288 32)
    (h : Cert.Pre_finite_inputs.fn (F := Ideal) a0 a1 a2 = fun _ => 1#1) :
    ∃ (x : (⟨2, ![16384, 1024]⟩ : Shape).Idx → ℝ) (cn : (⟨2, ![12288, 1024]⟩ : Shape).Idx → ℝ),
      a0 = (fun i => ((x i : ℝ) : EReal)) ∧ a1 = (fun i => ((cn i : ℝ) : EReal)) := by
  haveI : Subsingleton Cert.Pre_finite_inputs.S_.Idx := ⟨fun a b => funext fun d => d.elim0⟩
  have h0 := congrFun h ValueIdx.ix0
  dsimp only [Cert.Pre_finite_inputs.fn] at h0
  obtain ⟨h1, h2⟩ := IntOp.andi_eq_one.1 h0
  have e1 : ∀ i, ∃ r : ℝ, a0 i = ((r : ℝ) : EReal) := fun i =>
    real_of_abs_lt (a0 i) (Host.reduce_andi_all _ _ _ _ _ h1 i)
  have e2 : ∀ i, ∃ r : ℝ, a1 i = ((r : ℝ) : EReal) := fun i =>
    real_of_abs_lt (a1 i) (Host.reduce_andi_all _ _ _ _ _ h2 i)
  choose x hx using e1
  choose cn hcn using e2
  exact ⟨x, cn, funext hx, funext hcn⟩

end Cert.Finite

end
-- ==== Proof.lean ====
/-
  A softmax over 12288 centroid logits, aggregated per class, computed two ways.

  Both programs take X (16384 x 1024), centroids (12288 x 1024) and an integer label per centroid, form the logits X · Cᵀ, and
  return for every row r and class c the total softmax weight of the centroids labelled c,
      score (r, c) = (sum_k exp (logit r k) * [label k = c]) / (sum_k exp (logit r k)).
  The reference computes the softmax with the row maximum subtracted and scatters each probability into its label's class;
  a label outside the classes lands nowhere. The kernel walks the centroids 128 at a time with a running maximum, a running
  normaliser and a running per-class accumulator (the labels as a 0/1 table, so the scatter is a matrix product), rescaling
  by exp (old maximum - new maximum) at every step, and divides once at the end.
  Over the extended reals, with finite inputs, every logit is a real number; then after any number of tiles the running
  maximum is a real mu, the normaliser is sum exp (logit - mu) and the accumulator sum exp (logit - mu) * [label = c], since
  exp (mu - mu') * exp (x - mu) = exp (x - mu'); and a quotient of two such sums does not depend on the shift, in the kernel or
  in the reference: both are the score. The finiteness of the inputs is used exactly there: the rescaling identity and the
  division of a sum term by term fail at the infinities.
  The frames of the two kernel programs are the generated frame runs; the reference's frame is its generated run with the result
  dropped; the idealization rewrote nothing.
-/
import proofs.«419428_j32246614458630_2_alg».proof.Defs
import proofs.«419428_j32246614458630_2_alg».proof.Proof.Gen.Kernel
import proofs.«419428_j32246614458630_2_alg».proof.Proof.Gen.Kernel.Frame
import proofs.«419428_j32246614458630_2_alg».proof.Proof.Gen.KernelIdeal
import proofs.«419428_j32246614458630_2_alg».proof.Proof.Gen.KernelIdeal.Frame
import proofs.«419428_j32246614458630_2_alg».proof.Proof.Gen.KernelIdeal.Value
import proofs.«419428_j32246614458630_2_alg».proof.Proof.Gen.ReferenceIdeal
import proofs.«419428_j32246614458630_2_alg».proof.Proof.Gen.ReferenceIdeal.Run
import proofs.«419428_j32246614458630_2_alg».proof.Proof.Gen.ReferenceIdeal.Read
import proofs.«419428_j32246614458630_2_alg».proof.Proof.Gen.Pre_finite_inputs
import proofs.«419428_j32246614458630_2_alg».proof.Proof.KernelValue
import proofs.«419428_j32246614458630_2_alg».proof.Proof.KernelReal
import proofs.«419428_j32246614458630_2_alg».proof.Proof.RefValue
import proofs.«419428_j32246614458630_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Under the precondition the inputs are real arrays; the kernel's result array is then the score of those arrays, and so
    is the reference's. -/
theorem algebraic : Cert.algebraic_KernelIdeal_ReferenceIdeal := by
  intro m ρ m' ρ' hpre hagree
  have hreal : ∀ c : Dev Cert.KernelIdeal.nD,
      ∃ (x : (⟨2, ![16384, 1024]⟩ : Shape).Idx → ℝ) (cn : (⟨2, ![12288, 1024]⟩ : Shape).Idx → ℝ),
        m ((c.tc : Thread Cert.KernelIdeal.nD Cert.KernelIdeal.τ).loc Cert.KernelIdeal.main_arg0) = (fun i => ((x i : ℝ) : EReal))
        ∧ m ((c.tc : Thread Cert.KernelIdeal.nD Cert.KernelIdeal.τ).loc Cert.KernelIdeal.main_arg1) = (fun i => ((cn i : ℝ) : EReal)) :=
    fun c => Cert.Finite.real_of_pre _ _ _ (hpre c)
  choose x cn hx hc using hreal
  refine ⟨fun c i => ((Cert.Target.score (x c) (cn c)
      (m ((c.tc : Thread Cert.KernelIdeal.nD Cert.KernelIdeal.τ).loc Cert.KernelIdeal.main_arg2)) i : ℝ) : EReal), ?_, ?_⟩
  · exact (θ_run Cert.KernelIdeal.defs _ _).mono
      (fun r h c => ⟨(h c).1.trans ((Cert.KernelIdeal.KValue.final m c).trans
          (Cert.KernelIdeal.KReal.G_eq_score m c (x c) (cn c) (hx c) (hc c))), (h c).2⟩)
      (Cert.KernelIdeal.Value.run_blocks m ρ)
  · refine (θ_run Cert.ReferenceIdeal.defs _ _).mono
      (fun r h c => ⟨(h c).1.trans ((Cert.ReferenceIdeal.Read.val_main_v19_eq _ _ _).trans ?_), (h c).2⟩)
      (Cert.ReferenceIdeal.Value.run (F := Ideal) m' ρ')
    have hv := Cert.ReferenceIdeal.RefValue.val_eq
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (x c) (cn c) ((hagree c).1.trans (hx c)) ((hagree c).2.1.trans (hc c))
    show Cert.ReferenceIdeal.Read.val_main_v19 (F := Ideal) _ _ _ = fun i => ((Cert.Target.score (x c) (cn c)
      (m ((c.tc : Thread Cert.KernelIdeal.nD Cert.KernelIdeal.τ).loc Cert.KernelIdeal.main_arg2)) i : ℝ) : EReal)
    rw [hv, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
